-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S256x256 : Shape := ⟨2, ![256, 256]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S3x256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi c0_i32_48 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v74 : BitVec 32 := Scalar.muli v5 c4_i32_49
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1_i32_50 : BitVec 32 := 1#32
  let v76 : BitVec 32 := Scalar.muli v71 c1_i32_50
  let v77 : BitVec 32 := Scalar.addi v75 v76
  v77.toNat
def k0_dev5 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v95 : BitVec 32 := Scalar.muli v2 c16_i32_63
  let v96 : BitVec 32 := Scalar.addi c0_i32_64 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v97 : BitVec 32 := Scalar.muli v5 c4_i32_65
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_53 : BitVec 32 := 2#32
  let v84 : BitVec 32 := Scalar.addi v8 c2_i32_53
  let c4_i32_54 : BitVec 32 := 4#32
  let c0_i32_55 : BitVec 32 := 0#32
  let v85 : BitVec 1 := Scalar.cmpi .eq c4_i32_54 c0_i32_55
  let c1_i32_56 : BitVec 32 := 1#32
  let v86 : BitVec 32 := Scalar.select v85 c1_i32_56 c4_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1_i32_66 : BitVec 32 := 1#32
  let v99 : BitVec 32 := Scalar.muli v94 c1_i32_66
  let v100 : BitVec 32 := Scalar.addi v98 v99
  v100.toNat
def k0_dev6 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v118 : BitVec 32 := Scalar.muli v2 c16_i32_79
  let v119 : BitVec 32 := Scalar.addi c0_i32_80 v118
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_81 : BitVec 32 := 4#32
  let v120 : BitVec 32 := Scalar.muli v5 c4_i32_81
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_69 : BitVec 32 := 3#32
  let v107 : BitVec 32 := Scalar.addi v8 c3_i32_69
  let c4_i32_70 : BitVec 32 := 4#32
  let c0_i32_71 : BitVec 32 := 0#32
  let v108 : BitVec 1 := Scalar.cmpi .eq c4_i32_70 c0_i32_71
  let c1_i32_72 : BitVec 32 := 1#32
  let v109 : BitVec 32 := Scalar.select v108 c1_i32_72 c4_i32_70
  let v110 : BitVec 32 := Scalar.remsi v107 v109
  let c0_i32_74 : BitVec 32 := 0#32
  let v112 : BitVec 1 := Scalar.cmpi .slt v110 c0_i32_74
  let c0_i32_75 : BitVec 32 := 0#32
  let v113 : BitVec 1 := Scalar.cmpi .slt v109 c0_i32_75
  let v114 : BitVec 1 := Scalar.xori v112 v113
  let c0_i32_73 : BitVec 32 := 0#32
  let v111 : BitVec 1 := Scalar.cmpi .ne v110 c0_i32_73
  let v115 : BitVec 1 := Scalar.andi v114 v111
  let v116 : BitVec 32 := Scalar.addi v110 v109
  let v117 : BitVec 32 := Scalar.select v115 v116 v110
  let c1_i32_82 : BitVec 32 := 1#32
  let v122 : BitVec 32 := Scalar.muli v117 c1_i32_82
  let v123 : BitVec 32 := Scalar.addi v121 v122
  v123.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3_S1_2 : ∀ a, (![2] : Fin 1 → Nat) a + S1.size a ≤ S3.size a
  inb_S3x256x256_S1x256x256_2_0_0 : ∀ a, (![2, 0, 0] : Fin 3 → Nat) a + S1x256x256.size a ≤ S3x256x256.size a
  squeezes_S1x256x256_S256x256 : S1x256x256.Squeezes S256x256
  inb_S3_S1_1 : ∀ a, (![1] : Fin 1 → Nat) a + S1.size a ≤ S3.size a
  inb_S3x256x256_S1x256x256_1_0_0 : ∀ a, (![1, 0, 0] : Fin 3 → Nat) a + S1x256x256.size a ≤ S3x256x256.size a
  inb_S3x256x256_S1x256x256_0_0_0 : ∀ a, (![0, 0, 0] : Fin 3 → Nat) a + S1x256x256.size a ≤ S3x256x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x256x256 : 0 < S1x256x256.numel
  shapeCasts_S1x256x256_S256x256 : S1x256x256.ShapeCasts S256x256
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x256_S4x256x256 : S1024x256.ShapeCasts S4x256x256
  reducesTo_S4x256x256_S256x256_d0 : S4x256x256.ReducesTo [0] S256x256
  h_S_ : 0 < S_.numel

variable [Facts₀]

class Facts : Prop extends Facts₀ where

variable [Facts]
-- ==== Proof.Peers.lean ====
/-
  The ring of four devices along the innermost mesh axis.  Device `c` of the 2 × 4 × 4 mesh sits at
  (c / 16, c / 4 % 4, c % 4); the kernel only ever addresses the three devices that share its first two
  coordinates.  `pk j c` is the one whose last coordinate is `(c % 4 + j + 1) % 4`: the peer at offset
  `j + 1` round the ring.  Offsets `j + 1` and `3 - j` are inverse rotations, so `pk j.rev` undoes `pk j`.
-/
import Idealize.ShloMosaic.PureOps
import Idealize.ShloMosaic.Lib.Layout

namespace Cert.Ring

open Idealize.ShloMosaic

/-- The peer at offset `j + 1` along the last mesh axis (extent 4), the other two coordinates kept. -/
def pk (j : Fin 3) (c : Dev 32) : Dev 32 :=
  ⟨c.val / 4 * 4 + (c.val % 4 + j.val + 1) % 4, by have := c.isLt; omega⟩

/-- Rotating by `j + 1` and then by `3 - j` is the identity. -/
theorem pk_rev_pk (j : Fin 3) (c : Dev 32) : pk j.rev (pk j c) = c := by revert j c; decide
theorem pk_pk_rev (j : Fin 3) (c : Dev 32) : pk j (pk j.rev c) = c := by revert j c; decide
/-- A nonzero rotation moves every device. -/
theorem pk_ne_self (j : Fin 3) (c : Dev 32) : pk j c ≠ c := by revert j c; decide
/-- Different offsets reach different peers. -/
theorem pk_inj_off (j j' : Fin 3) (c : Dev 32) (h : pk j c = pk j' c) : j = j' := by revert j j' c; decide
/-- Each rotation is a permutation of the devices. -/
def rot (j : Fin 3) : Dev 32 ≃ Dev 32 := ⟨pk j, pk j.rev, pk_rev_pk j, pk_pk_rev j⟩

variable {F : FTy → Type} [FloatOps F]

/-- The sum of four blocks, associated to the left: what a device stores from its own block and the three it received. -/
def sum4 (a b c d : FVec F ⟨2, ![256, 256]⟩ .f32) : FVec F ⟨2, ![256, 256]⟩ .f32 := addf (addf (addf a b) c) d

end Cert.Ring
-- ==== Proof.RefValue.lean ====
import proofs.«900736_g7700000000000737_dist_ar_v7x_xyz2x4x4_z_m256_n256_f32_1_alg».proof.Proof.Gen.ReferenceIdeal.Run
import proofs.«900736_g7700000000000737_dist_ar_v7x_xyz2x4x4_z_m256_n256_f32_1_alg».proof.Proof.Gen.ReferenceIdeal.Read
import proofs.«900736_g7700000000000737_dist_ar_v7x_xyz2x4x4_z_m256_n256_f32_1_alg».proof.Proof.Gen.ReferenceIdeal
import proofs.«900736_g7700000000000737_dist_ar_v7x_xyz2x4x4_z_m256_n256_f32_1_alg».proof.Proof.Gen.Pre_finite_inputs_ReferenceIdeal
import proofs.«900736_g7700000000000737_dist_ar_v7x_xyz2x4x4_z_m256_n256_f32_1_alg».proof.Proof.Peers
import proofs.«900736_g7700000000000737_dist_ar_v7x_xyz2x4x4_z_m256_n256_f32_1_alg».proof.Defs
import Idealize.ShloMosaic.Lib.Layout
import Idealize.ShloMosaic.Lib.ValueIdx
import Idealize.ShloMosaic.PureOps.Ideal.Laws
import Mathlib.Algebra.BigOperators.Fin
import Mathlib.Tactic.Abel
import Mathlib.Tactic.FinCases

/-!
  The value of the certificate, and the reference's side of it.

  The whole input `X` has 1024 rows of 256 columns.  It is cut into four blocks of 256 rows; device `c` of
  the 2 × 4 × 4 mesh holds block `c % 4`.  The reference reshapes `X` to 4 × 256 × 256 and sums over the
  first axis from the initial value `0`: its result at `(r, q)` is `0 + Σ_{k < 4} X (256 k + r, q)`.
  A device adds its own block and the blocks of the three devices that share its first two coordinates,
  `((own + peer₀) + peer₁) + peer₂`; the four devices' last coordinates are `c % 4 + j` (mod 4), `j = 0 … 3`:
  each of the four blocks once, in a rotated order.  Over the extended reals addition is commutative and
  associative and `0 + x = x`, so the two are the same sum.
-/

noncomputable section

namespace Cert.RefSide

open Idealize.ShloMosaic Idealize.ShloMosaic.ValueIdx Idealize.SL.Sem
open Cert.ReferenceIdeal Cert.ReferenceIdeal.Gen
open scoped BigOperators

/-- The reference's result as a function of its whole argument: the term its run ends at. -/
def refVal (X : (⟨S1024x256, .f32⟩ : BufTy).Contents (Elt Ideal)) : (⟨S256x256, .f32⟩ : BufTy).Contents (Elt Ideal) :=
  Host.reduceAdd (F := Ideal) (shapeCast _ X shapeCasts_S1024x256_S4x256x256) (constant S_ .f32 0x00000000#32)
    reducesTo_S4x256x256_S256x256_d0 h_S_

/-- The reference runs and leaves its argument unchanged: its run with the result's value dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Row `256 k + r`, column `q` of the whole array, for `(r, q)` an index of a block and `k` the block. -/
def row (k : Fin 4) (i : S256x256.Idx) : S1024x256.Idx :=
  ix2 (n0 := 1024) (n1 := 256)
    ⟨256 * k.val + (i 0).val, by have h0 : (i 0).val < 256 := (i 0).isLt; have := k.isLt; omega⟩
    ⟨(i 1).val, (i 1).isLt⟩

/-- The last mesh coordinate of a device. -/
def last (c : Dev 32) : Fin 4 := ⟨c.val % 4, Nat.mod_lt _ (by decide)⟩

/-- The reference's result at an index is the sum of the four blocks there. -/
theorem refVal_apply (X : (⟨S1024x256, .f32⟩ : BufTy).Contents (Elt Ideal)) (i : S256x256.Idx) :
    refVal X i = ∑ k : Fin 4, (show EReal from X (row k i)) := by
  show Cert.ReferenceIdeal.Read.val_main_v1 (F := Ideal) X i = _
  rw [Cert.ReferenceIdeal.Read.val_main_v1_apply, Cert.ReferenceIdeal.Read.val_main_cst_apply]
  rw [show (FloatOps.ofBits (F := Ideal) .f32 0x00000000#32) = (0 : EReal) from Ideal.ofBits_zero_f32]
  rw [zero_add]
  refine Finset.sum_congr rfl fun k _ => ?_
  rw [Cert.ReferenceIdeal.Read.val_main_v0_apply]
  refine congrArg X (funext fun a => Fin.ext ?_)
  have h0 : (i 0).val < 256 := (i 0).isLt
  have h1 : (i 1).val < 256 := (i 1).isLt
  have hk := k.isLt
  match a with
  | ⟨0, _⟩ => show ((k.val * 256 + (i 0).val) * 256 + (i 1).val) / 256 = 256 * k.val + (i 0).val; omega
  | ⟨1, _⟩ => show ((k.val * 256 + (i 0).val) * 256 + (i 1).val) % 256 = (i 1).val; omega

/-- Device `c`'s block at `(r, q)` is the whole array at row `256 (c % 4) + r`, column `q`. -/
theorem blk_apply (X : (⟨S1024x256, .f32⟩ : BufTy).Contents (Elt Ideal)) (c : Dev 32) (i : S256x256.Idx) :
    (Layout.blockN ⟨2, ![256, 256]⟩ ⟨2, ![1024, 256]⟩ (Layout.meshBlock [2, 4, 4] ![[2], []] c) X) i = X (row (last c) i) := by
  rw [Layout.blockN_apply]
  refine congrArg X (funext fun a => Fin.ext ?_)
  match a with
  | ⟨0, _⟩ => show (c.val / 1 % 4 * 1 + 0) * 256 + (i 0).val = 256 * (c.val % 4) + (i 0).val; omega
  | ⟨1, _⟩ => show 0 * 256 + (i 1).val = (i 1).val; omega

/-- The three peers' last coordinates are the device's own, moved on by one, two and three round the ring of four. -/
theorem last_pk0 (c : Dev 32) : last (Cert.Ring.pk 0 c) = last c + 1 := by revert c; decide
theorem last_pk1 (c : Dev 32) : last (Cert.Ring.pk 1 c) = last c + 2 := by revert c; decide
theorem last_pk2 (c : Dev 32) : last (Cert.Ring.pk 2 c) = last c + 3 := by revert c; decide

/-- Four consecutive places round a ring of four are all four places: the left-associated sum from any start is the whole sum. -/
theorem rot_sum (f : Fin 4 → EReal) (t : Fin 4) :
    f t + f (t + 1) + f (t + 2) + f (t + 3) = ∑ k : Fin 4, f k := by
  rw [Fin.sum_univ_four]
  fin_cases t
  · show f 0 + f 1 + f 2 + f 3 = _; rfl
  · show f 1 + f 2 + f 3 + f 0 = _; abel
  · show f 2 + f 3 + f 0 + f 1 = _; abel
  · show f 3 + f 0 + f 1 + f 2 = _; abel

/-- The value of the kernel on every device is the reference's: the device's own block and its three peers' blocks,
    added from the left, are the four blocks of `X` in a rotated order, and their sum is the reference's sum. -/
theorem sum4_blocks_eq_ref (X : (⟨S1024x256, .f32⟩ : BufTy).Contents (Elt Ideal)) (c : Dev 32) :
    Cert.Ring.sum4 (F := Ideal)
        (Layout.blockN ⟨2, ![256, 256]⟩ ⟨2, ![1024, 256]⟩ (Layout.meshBlock [2, 4, 4] ![[2], []] c) X)
        (Layout.blockN ⟨2, ![256, 256]⟩ ⟨2, ![1024, 256]⟩ (Layout.meshBlock [2, 4, 4] ![[2], []] (Cert.Ring.pk 0 c)) X)
        (Layout.blockN ⟨2, ![256, 256]⟩ ⟨2, ![1024, 256]⟩ (Layout.meshBlock [2, 4, 4] ![[2], []] (Cert.Ring.pk 1 c)) X)
        (Layout.blockN ⟨2, ![256, 256]⟩ ⟨2, ![1024, 256]⟩ (Layout.meshBlock [2, 4, 4] ![[2], []] (Cert.Ring.pk 2 c)) X)
      = refVal X := by
  funext i
  rw [refVal_apply]
  unfold Cert.Ring.sum4
  rw [addf_apply, addf_apply, addf_apply, blk_apply, blk_apply, blk_apply, blk_apply,
    last_pk0, last_pk1, last_pk2]
  exact rot_sum (fun k => X (row k i)) (last c)

/-- info: 'Cert.RefSide.sum4_blocks_eq_ref' depends on axioms: [propext, Classical.choice, Quot.sound] -/
#guard_msgs in #print axioms Cert.RefSide.sum4_blocks_eq_ref

end Cert.RefSide

end
-- ==== Proof.SlotDefs.lean ====
/-
  The scratch buffer f32[3, 256, 256] seen as three landing slots of f32[256, 256]: slot `s` is the plane of
  first coordinate `s`, reached as the kernel reaches it — a unit-stride slice at offsets (s, 0, 0) of sizes
  (1, 256, 256) with the leading axis of size one dropped.
-/
import proofs.«900736_g7700000000000737_dist_ar_v7x_xyz2x4x4_z_m256_n256_f32_1_alg».proof.Proof.Gen.KernelIdeal

noncomputable section

namespace Cert.KernelIdeal.Slots

open Cert.KernelIdeal Cert.KernelIdeal.Facts₀ Cert.KernelIdeal.Facts
open Idealize.ShloMosaic

/-- The scratch buffer, whole. -/
abbrev rM : Memref sig .tc .vmem S3x256x256 .f32 := Memref.whole cc0_scratch0

/-- The plane of first coordinate 0, 1, 2 as a rectangle of the scratch buffer. -/
abbrev rect0 : Rect S3x256x256 := Rect.unit (s := S3x256x256) ![0, 0, 0] S1x256x256.size inb_S3x256x256_S1x256x256_0_0_0
abbrev rect1 : Rect S3x256x256 := Rect.unit (s := S3x256x256) ![1, 0, 0] S1x256x256.size inb_S3x256x256_S1x256x256_1_0_0
abbrev rect2 : Rect S3x256x256 := Rect.unit (s := S3x256x256) ![2, 0, 0] S1x256x256.size inb_S3x256x256_S1x256x256_2_0_0

/-- The three landing slots: each plane as a memref of f32[256, 256]. -/
abbrev slot0 : Memref sig .tc .vmem S256x256 .f32 := (rM.slice rect0 (fun _ => rfl)).squeeze S256x256 squeezes_S1x256x256_S256x256
abbrev slot1 : Memref sig .tc .vmem S256x256 .f32 := (rM.slice rect1 (fun _ => rfl)).squeeze S256x256 squeezes_S1x256x256_S256x256
abbrev slot2 : Memref sig .tc .vmem S256x256 .f32 := (rM.slice rect2 (fun _ => rfl)).squeeze S256x256 squeezes_S1x256x256_S256x256

end Cert.KernelIdeal.Slots

end
-- ==== Proof.Proto.lean ====
/-
  The all-reduce's protocol on the ring of four devices along the last mesh axis.

  Device `c` signals the barrier semaphore of its three peers `pk j c` (offsets 1, 2, 3) and waits for three
  units on its own: one unit from each peer, so once the wait passes all three peers have entered the kernel.
  It then copies its block of `x` into a landing slot of each peer — the copy at offset `j + 1` lands in slot
  `2 - j` of `pk j c`, crediting send semaphore `j` here and receive semaphore `2 - j` there —, waits for its
  three sends and its three receives, and adds its block to the three that landed.  Seen from the receiver,
  slot `s` of device `c` is written by `pk s c`.

  Under the rounds discipline every semaphore has ONE round.  A barrier cell has three duties of one unit,
  duty `j` paid by the peer whose offset-`(j+1)` signal reaches it; with its unit that peer hands over its
  own landing slot `j` — the slot this device's copy will write — and the fact that it stands at round 0 of
  that slot's receive cell.  A send cell has one duty of the block's credit, handing back the share of `x`
  the copy read; a receive cell one duty of the block's credit, handing its owner the slot holding the
  sender's block.
-/
import proofs.«900736_g7700000000000737_dist_ar_v7x_xyz2x4x4_z_m256_n256_f32_1_alg».proof.Proof.Peers
import proofs.«900736_g7700000000000737_dist_ar_v7x_xyz2x4x4_z_m256_n256_f32_1_alg».proof.Proof.SlotDefs
import proofs.«900736_g7700000000000737_dist_ar_v7x_xyz2x4x4_z_m256_n256_f32_1_alg».proof.Proof.Gen.KernelIdeal.Skeleton
import proofs.«900736_g7700000000000737_dist_ar_v7x_xyz2x4x4_z_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Facts₀ Cert.KernelIdeal.Facts Cert.KernelIdeal.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The device the kernel addresses at each site is the peer at that offset -/

theorem dev1_eq (c : Dev nD) : (⟨k0_dev1 c, k0_dev1_lt c⟩ : Dev nD) = pk 0 c :=
  Fin.ext ((by decide +kernel : ∀ c : Dev nD, k0_dev1 c = (pk 0 c).val) c)
theorem dev2_eq (c : Dev nD) : (⟨k0_dev2 c, k0_dev2_lt c⟩ : Dev nD) = pk 1 c :=
  Fin.ext ((by decide +kernel : ∀ c : Dev nD, k0_dev2 c = (pk 1 c).val) c)
theorem dev3_eq (c : Dev nD) : (⟨k0_dev3 c, k0_dev3_lt c⟩ : Dev nD) = pk 2 c :=
  Fin.ext ((by decide +kernel : ∀ c : Dev nD, k0_dev3 c = (pk 2 c).val) c)
theorem dev4_eq (c : Dev nD) : (⟨k0_dev4 c, k0_dev4_lt c⟩ : Dev nD) = pk 0 c :=
  Fin.ext ((by decide +kernel : ∀ c : Dev nD, k0_dev4 c = (pk 0 c).val) c)
theorem dev5_eq (c : Dev nD) : (⟨k0_dev5 c, k0_dev5_lt c⟩ : Dev nD) = pk 1 c :=
  Fin.ext ((by decide +kernel : ∀ c : Dev nD, k0_dev5 c = (pk 1 c).val) c)
theorem dev6_eq (c : Dev nD) : (⟨k0_dev6 c, k0_dev6_lt c⟩ : Dev nD) = pk 2 c :=
  Fin.ext ((by decide +kernel : ∀ c : Dev nD, k0_dev6 c = (pk 2 c).val) c)

/-! ## The memrefs and cells -/

abbrev xM : Memref sig .tc .vmem S256x256 .f32 := Memref.whole cc0_stg0_0
abbrev oM : Memref sig .tc .vmem S256x256 .f32 := Memref.whole cc0_stg1_0

/-- Landing slot `s`. -/
abbrev slotM : Fin 3 → Memref sig .tc .vmem S256x256 .f32 := fun | 0 => slot0 | 1 => slot1 | 2 => slot2

/-- The barrier semaphore of collective id 0 (the runtime's, not scoped to the launch). -/
abbrev barS : Sem sig := (SemArray.scalar (sig.barrier 0 rfl) : Sems sig S_).sem
/-- The three send and the three receive DMA semaphores, as the body names them. -/
abbrev snd0 : DmaSems sig S_ := (cc0_scratch1.slice (Rect.unit (s := S3) ![0] S1.size inb_S3_S1_0)).squeeze S_ squeezes_S1_S_
abbrev snd1 : DmaSems sig S_ := (cc0_scratch1.slice (Rect.unit (s := S3) ![1] S1.size inb_S3_S1_1)).squeeze S_ squeezes_S1_S_
abbrev snd2 : DmaSems sig S_ := (cc0_scratch1.slice (Rect.unit (s := S3) ![2] S1.size inb_S3_S1_2)).squeeze S_ squeezes_S1_S_
abbrev rcv0 : DmaSems sig S_ := (cc0_scratch2.slice (Rect.unit (s := S3) ![0] S1.size inb_S3_S1_0)).squeeze S_ squeezes_S1_S_
abbrev rcv1 : DmaSems sig S_ := (cc0_scratch2.slice (Rect.unit (s := S3) ![1] S1.size inb_S3_S1_1)).squeeze S_ squeezes_S1_S_
abbrev rcv2 : DmaSems sig S_ := (cc0_scratch2.slice (Rect.unit (s := S3) ![2] S1.size inb_S3_S1_2)).squeeze S_ squeezes_S1_S_

abbrev sndD : Fin 3 → DmaSem sig := fun | 0 => snd0.sem | 1 => snd1.sem | 2 => snd2.sem
abbrev rcvD : Fin 3 → DmaSem sig := fun | 0 => rcv0.sem | 1 => rcv1.sem | 2 => rcv2.sem

/-- A device's seven semaphores of the protocol: barrier; send 0, 1, 2; receive 0, 1, 2. -/
abbrev csem : Fin 7 → SemLoc sig := fun
  | 0 => .reg barS | 1 => .dma (sndD 0) | 2 => .dma (sndD 1) | 3 => .dma (sndD 2) | 4 => .dma (rcvD 0) | 5 => .dma (rcvD 1) | 6 => .dma (rcvD 2)
abbrev si (j : Fin 3) : Fin 7 := ⟨1 + j.val, by omega⟩
abbrev ri (s : Fin 3) : Fin 7 := ⟨4 + s.val, by omega⟩

abbrev kcell (ck : Dev nD × Fin 7) : GSem nD τ sig := ((ck.1 : Thread nD τ), csem ck.2)
abbrev barCell (c : Dev nD) : GSem nD τ sig := kcell (c, 0)
abbrev sendCell (c : Dev nD) (j : Fin 3) : GSem nD τ sig := kcell (c, si j)
abbrev recvCell (c : Dev nD) (s : Fin 3) : GSem nD τ sig := kcell (c, ri s)

/-- The kernel's OWN (scoped) semaphores, as the launch theorem indexes them: the six DMA semaphores. -/
abbrev osem : Fin 6 → SemLoc sig := fun k => csem ⟨1 + k.val, by omega⟩

theorem csem_injective : Function.Injective (csem : Fin 7 → SemLoc sig) := by decide

/-- Which of the seven a semaphore is, if any. -/
def kindOf (sm : SemLoc sig) : Option (Fin 7) :=
  if sm = csem 0 then some 0 else if sm = csem 1 then some 1 else if sm = csem 2 then some 2 else if sm = csem 3 then some 3
  else if sm = csem 4 then some 4 else if sm = csem 5 then some 5 else if sm = csem 6 then some 6 else none

theorem kindOf_csem : ∀ k : Fin 7, kindOf (csem k) = some k := by decide

/-- The credit of one block's transfer. -/
abbrev N : ℕ := (slot0 : Memref sig .tc .vmem S256x256 .f32).view.dmaCredit
theorem N_pos : 0 < N := View.dmaCredit_pos _ (by decide)

/-! ## Contents and what is held -/

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The three shares of the staging buffer of `x` the three copies read through. -/
abbrev qsh : Fin 3 → PosShare TreeShare := fun | 0 => fullShare.left | 1 => fullShare.right.left | 2 => fullShare.right.right

/-- Slot `s` of device `c`'s scratch buffer, held whole at contents `f` (only `f`'s values on the slot matter). -/
def slotPts (c : Dev nD) (s : Fin 3) (f : Buf (Elt F) ((slotM s).view.loc (c : Thread nD τ))) : sProp 𝕄 :=
  (slotM s).view.loc (c : Thread nD τ) ↦[(slotM s).view.set]{fullShare} f
/-- Share `q` of device `c`'s staging buffer of `x`, at its block. -/
def xPts (c : Dev nD) (q : PosShare TreeShare) : sProp 𝕄 :=
  (xM : Memref sig .tc .vmem S256x256 .f32).view.loc (c : Thread nD τ) ↦[(xM : Memref sig .tc .vmem S256x256 .f32).view.set]{q} xstg m ρ c

omit [FloatOps F] in
instance slotPts_storable (c : Dev nD) (s : Fin 3) (f) : BI.Storable (upEmb : UEmb _ 𝕄) (slotPts (F := F) c s f) := by unfold slotPts; infer_instance
omit [FloatOps F] in
instance xPts_storable (c : Dev nD) (q) : BI.Storable (upEmb : UEmb _ 𝕄) (xPts (F := F) m ρ c q) := by unfold xPts; infer_instance

omit [FloatOps F] in
theorem xPts_eq (c : Dev nD) (q : PosShare TreeShare) : xPts m ρ c q = (((c : Thread nD τ).loc cc0_stg0_0) ↦{q} xstg m ρ c : sProp 𝕄) := by
  unfold xPts; rw [View.set_whole]

/-! ## The schedule -/

/-- Duty `j` of `c`'s barrier cell is paid by `pk j.rev c` (whose offset-`(j+1)` peer is `c`); with it that device hands
    over its landing slot `j` and that it stands at round 0 of that slot's receive cell. -/
def barPay (j : Fin 3) (c : Dev nD) : sProp 𝕄 :=
  iprop((∃ f, slotPts (pk j.rev c) j f) ∗ reached ER (recvCell (pk j.rev c) j) 0)
/-- The landing in slot `s` of `c` hands over the slot holding `pk s c`'s block. -/
def recvPay (s : Fin 3) (c : Dev nD) : sProp 𝕄 :=
  iprop(∃ fd, slotPts c s ((slotM s).view.write (Elt F) fd (xstg m ρ (pk s c)) Finset.univ))
/-- The copy at offset `j + 1` hands back the share of the staging buffer of `x` it read. -/
def sendPay (j : Fin 3) (c : Dev nD) : sProp 𝕄 := xPts m ρ c (qsh j)

/-- What duty `d` of cell `k` of device `c` hands its owner. -/
def payOf (k : Fin 7) (c : Dev nD) (d : Fin 3) : sProp 𝕄 := match k with
  | 0 => barPay d c
  | 1 => sendPay m ρ 0 c | 2 => sendPay m ρ 1 c | 3 => sendPay m ρ 2 c
  | 4 => recvPay m ρ 0 c | 5 => recvPay m ρ 1 c | 6 => recvPay m ρ 2 c

/-- One round, round 0: a barrier cell has three duties of one unit; a send or receive cell the one duty `0` of the
    block's credit. -/
def ringRd : Rounds.Schedule (GSem nD τ sig) (Fin 3) 𝕄 where
  duties g r := if r = 0 ∧ g.1.2 = .tc then (match kindOf g.2 with | some 0 => Finset.univ | some _ => {0} | none => ∅) else ∅
  unitless _ := False
  amount g _ _ := if g.2 = .reg barS then 1 else N
  payload g _ d := match kindOf g.2 with | some k => payOf m ρ k g.1.1 d | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 3) :
    BI.Storable (upEmb : UEmb _ 𝕄) ((ringRd (F := F) m ρ).payload g r d) := by
  show BI.Storable upEmb (match kindOf g.2 with | some k => payOf m ρ k g.1.1 d | none => iprop(emp))
  cases kindOf g.2 with
  | none => dsimp only; infer_instance
  | some k =>
    dsimp only
    fin_cases k <;> simp only [payOf] <;> first | (unfold barPay; infer_instance) | (unfold sendPay; infer_instance) | (unfold recvPay; infer_instance)

section Sched
variable (c : Dev nD)

omit [FloatOps F] in
theorem duties_bar : (ringRd (F := F) m ρ).duties (barCell c) 0 = Finset.univ := by
  dsimp only [ringRd]; rw [if_pos ⟨rfl, rfl⟩, kindOf_csem]; rfl
omit [FloatOps F] in
theorem duties_send (j : Fin 3) : (ringRd (F := F) m ρ).duties (sendCell c j) 0 = {0} := by
  dsimp only [ringRd]; rw [if_pos ⟨rfl, rfl⟩, kindOf_csem]; fin_cases j <;> rfl
omit [FloatOps F] in
theorem duties_recv (s : Fin 3) : (ringRd (F := F) m ρ).duties (recvCell c s) 0 = {0} := by
  dsimp only [ringRd]; rw [if_pos ⟨rfl, rfl⟩, kindOf_csem]; fin_cases s <;> rfl
omit [FloatOps F] in
theorem duties_later (g : GSem nD τ sig) : ∀ r, 1 ≤ r → (ringRd (F := F) m ρ).duties g r = ∅ :=
  fun r hr => by dsimp only [ringRd]; rw [if_neg fun h => by omega]

omit [FloatOps F] in
theorem amount_bar (d : Fin 3) : (ringRd (F := F) m ρ).amount (barCell c) 0 d = 1 := by dsimp only [ringRd]; exact if_pos rfl
omit [FloatOps F] in
theorem amount_send (j d : Fin 3) : (ringRd (F := F) m ρ).amount (sendCell c j) 0 d = N := by
  dsimp only [ringRd]; exact if_neg (fun h => by fin_cases j <;> cases h)
omit [FloatOps F] in
theorem amount_recv (s d : Fin 3) : (ringRd (F := F) m ρ).amount (recvCell c s) 0 d = N := by
  dsimp only [ringRd]; exact if_neg (fun h => by fin_cases s <;> cases h)

omit [FloatOps F] in
theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send (j : Fin 3) : (ringRd (F := F) m ρ).expect (sendCell c j) 0 = N := by
  unfold Schedule.expect Schedule.amountOf; rw [duties_send, Finset.sum_singleton, amount_send]
omit [FloatOps F] in
theorem expect_recv (s : Fin 3) : (ringRd (F := F) m ρ).expect (recvCell c s) 0 = N := by
  unfold Schedule.expect Schedule.amountOf; rw [duties_recv, Finset.sum_singleton, amount_recv]

omit [FloatOps F] in
theorem payload_bar (d : Fin 3) : (ringRd (F := F) m ρ).payload (barCell c) 0 d = barPay d c := by
  dsimp only [ringRd]; rw [kindOf_csem]; rfl
omit [FloatOps F] in
theorem payload_send (j d : Fin 3) : (ringRd (F := F) m ρ).payload (sendCell c j) 0 d = sendPay m ρ j c := by
  dsimp only [ringRd]; rw [kindOf_csem]; fin_cases j <;> rfl
omit [FloatOps F] in
theorem payload_recv (s d : Fin 3) : (ringRd (F := F) m ρ).payload (recvCell c s) 0 d = recvPay m ρ s c := by
  dsimp only [ringRd]; rw [kindOf_csem]; fin_cases s <;> rfl

omit [FloatOps F] in
/-- The whole of the barrier cell's round: the three peers' payloads. -/
theorem rest_bar : bigSep ((ringRd (F := F) m ρ).duties (barCell c) 0 \ ∅) (fun d => (ringRd (F := F) m ρ).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
theorem rest_send (j : Fin 3) : bigSep ((ringRd (F := F) m ρ).duties (sendCell c j) 0 \ ∅) (fun d => (ringRd (F := F) m ρ).payload (sendCell c j) 0 d)
    = sendPay m ρ j c := by
  rw [Finset.sdiff_empty, duties_send, bigSep_singleton, payload_send]
omit [FloatOps F] in
theorem rest_recv (s : Fin 3) : bigSep ((ringRd (F := F) m ρ).duties (recvCell c s) 0 \ ∅) (fun d => (ringRd (F := F) m ρ).payload (recvCell c s) 0 d)
    = recvPay m ρ s c := by
  rw [Finset.sdiff_empty, duties_recv, bigSep_singleton, payload_recv]

end Sched

/-! ## What each core owes at launch; the levels -/

/-- The unit device `c` owes the barrier cell of its peer at offset `j + 1`, and the block's credit it owes that
    peer's receive cell `2 - j`. -/
def Bt (c : Dev nD) (j : Fin 3) : CellTallies nD τ sig Unit := tallyAt (barCell (pk j c)) () 1
def Rt (c : Dev nD) (j : Fin 3) : CellTallies nD τ sig Unit := tallyAt (recvCell (pk j c) j.rev) () N
/-- What is still owed at the barrier wait: the three copies' receive credits; -/
def OR (c : Dev nD) : CellTallies nD τ sig Unit := (Rt c 2 + Rt c 1) + Rt c 0
/-- and at launch, summed so that each payment in program order peels the last summand. -/
def O₀ (c : Dev nD) : CellTallies nD τ sig Unit := ((OR c + Bt c 2) + Bt c 1) + Bt c 0

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = csem 4 ∨ g.2 = csem 5 ∨ g.2 = csem 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (s : Fin 3) : lv (recvCell c s) () = 2 := by
  fin_cases s <;> (dsimp only [lv]; rw [if_neg (by decide), if_pos (by decide)])
theorem lv_other (c : Dev nD) (sm : SemLoc sig) (h : ∀ k : Fin 7, sm ≠ csem k) : lv ((c : Thread nD τ), sm) () = 0 := by
  dsimp only [lv]; rw [if_neg (h 0), if_neg (by rintro (h' | h' | h') <;> [exact h 4 h'; exact h 5 h'; exact h 6 h'])]
theorem lv_send (c : Dev nD) (j : Fin 3) : lv (sendCell c j) () = 0 := by
  fin_cases j <;> (dsimp only [lv]; rw [if_neg (by decide), if_neg (by decide)])

theorem OR_pos {c : Dev nD} {g : GSem nD τ sig} {u : Unit} (h : 0 < OR c g u) : ∃ j : Fin 3, g = recvCell (pk j c) j.rev := by
  unfold OR at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ j : Fin 3, g = recvCell (pk j c) j.rev) ∨ ∃ j : Fin 3, g = barCell (pk j c) := by
  unfold O₀ at h
  rcases Pipeline.add_pos_cases h with h | h
  · rcases Pipeline.add_pos_cases h with h | h
    · rcases Pipeline.add_pos_cases h with h | h
      · exact .inl (OR_pos h)
      · exact .inr ⟨2, (Pipeline.tallyAt_pos h).1⟩
    · exact .inr ⟨1, (Pipeline.tallyAt_pos h).1⟩
  · exact .inr ⟨0, (Pipeline.tallyAt_pos h).1⟩

omit [FloatOps F] in
/-- A cell at level 0 may be waited on whatever of `O₀` is still owed: everything owed sits at level 1 or 2. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g i hg => ?_
    rcases O₀_pos hg with ⟨j, rfl⟩ | ⟨j, rfl⟩
    · exact ⟨by rw [L_tc]; exact Finset.mem_singleton_self _, by rw [hsm, lv_recv]; decide⟩
    · exact ⟨by rw [L_tc]; exact Finset.mem_singleton_self _, by rw [hsm, lv_bar]; decide⟩
  · rw [MayWait_zero]; iintro -; iempintro

omit [FloatOps F] in
/-- At its barrier wait a device owes receive credits only: receive cells sit above barrier cells. -/
theorem mayWait_bar (c : Dev nD) : (levAts L lv : sProp 𝕄) ⊢ MayWait (c : Thread nD τ) (.reg barS) () (OR c) :=
  Pipeline.mayWait_of_levAts (by rw [L_tc]; exact Finset.mem_singleton_self _) fun g i hg => by
    obtain ⟨j, rfl⟩ := OR_pos hg
    exact ⟨by rw [L_tc]; exact Finset.mem_singleton_self _, by rw [show lv ((c : Thread nD τ), SemLoc.reg barS) () = 1 from if_pos rfl, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its block of `x` plus its three peers', in the order the body adds them. -/
def outAt (c : Dev nD) : (cc0_stg1_0 : Ref sig .tc).ty.Contents (Elt F) :=
  sum4 (xstg m ρ c) (xstg m ρ (pk 0 c)) (xstg m ρ (pk 1 c)) (xstg m ρ (pk 2 c))

/-- Every cell's invariant, under the names `K` the launch allocated them at, and round 0 of every cell reached:
    persistent, so each device's body takes from it the ones it opens. -/
def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at' (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
omit [FloatOps F] in
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
omit [FloatOps F] in
theorem inv_at (K : Dev nD × Fin 7 → ℕ) (ck : Dev nD × Fin 7) : records m ρ K ⊢ cellInv ER (ringRd m ρ) (K ck) (kcell ck) := by
  unfold records; iintro ⟨H, -⟩; iapply (inv_at' m ρ K ck); iexact H
omit [FloatOps F] in
theorem reached_at (K : Dev nD × Fin 7 → ℕ) (ck : Dev nD × Fin 7) : records m ρ K ⊢ reached ER (kcell ck) 0 := by
  unfold records; iintro ⟨-, H⟩; iapply (reached_at' (F := F) ck); iexact H

/-- Device `c`'s positions: round 0 of each of its seven cells, nothing taken. -/
def positions (c : Dev nD) : sProp 𝕄 := bigSep Finset.univ fun k : Fin 7 => atPos ER (kcell (c, k)) 0 ∅ 0
/-- The tokens of the nine duties device `c` pays: per offset, the peer's barrier duty, the peer's receive duty, its own
    send duty. -/
def payToks (c : Dev nD) : sProp 𝕄 :=
  bigSep Finset.univ fun j : Fin 3 =>
    iprop(dutyTok ER (barCell (pk j c)) 0 j ∗ dutyTok ER (recvCell (pk j c) j.rev) 0 0 ∗ dutyTok ER (sendCell c j) 0 0)

/-- The ring's ghost state device `c` starts from. -/
def ghost (K : Dev nD × Fin 7 → ℕ) (c : Dev nD) : sProp 𝕄 := iprop(records m ρ K ∗ positions c ∗ payToks c)

/-- What device `c`'s body starts from: that at some names, the credit of its barrier's three units and of its three
    receive cells, and the level facts. -/
def start (c : Dev nD) : sProp 𝕄 :=
  iprop((∃ K, ghost m ρ K c) ∗ cred (tallyAt (barCell c) () 3)
    ∗ (bigSep Finset.univ fun s : Fin 3 => cred (tallyAt (recvCell c s) () N)) ∗ levAts L lv)

def Φ₀ (c : Dev nD) : sProp 𝕄 := iprop(start m ρ c ∗ ∃ f : Buf (Elt F) ((c : Thread nD τ).loc cc0_scratch0), ((c : Thread nD τ).loc cc0_scratch0) ↦{fullShare} f)
/-- After the point: the scratch buffer whole again, the six OWN cells at zero, closed (the barrier cell is the
    runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ bigSep Finset.univ fun k : Fin 6 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the one grid point starts from and ends with, as the pipeline states it. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-! ## What the launch deals each device, and what its global step makes of it -/

/-- The duty tokens of device `c`'s OWN cells, as minted: its barrier's three, one per send cell, one per receive cell. -/
def toks (c : Dev nD) : sProp 𝕄 :=
  bigSep Finset.univ fun j : Fin 3 => iprop(dutyTok ER (barCell c) 0 j ∗ dutyTok ER (sendCell c j) 0 0 ∗ dutyTok ER (recvCell c j) 0 0)

/-- What the launch element deals device `c`: each of its seven cells' round state, position and reached-mark, and `toks c`. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it: the ring's ghost state at some names. -/
def G' (c : Dev nD) : sProp 𝕄 := iprop(∃ K, ghost m ρ K c)

end Cert.KernelIdeal.Hand

end
-- ==== Proof.Slots.lean ====
/-
  The three landing slots of the scratch buffer f32[3, 256, 256]: which elements each slot holds, that the slots
  are pairwise disjoint, that a load of the plane (s, 0, 0) + [1, 256, 256] through the whole buffer touches
  exactly slot s, and that what was written into slot s through its own memref is what that load reads back
  after the leading axis of size one is dropped.
-/
import proofs.«900736_g7700000000000737_dist_ar_v7x_xyz2x4x4_z_m256_n256_f32_1_alg».proof.Proof.SlotDefs
import Idealize.ShloMosaic.Signature.View
import Idealize.ShloMosaic.Signature.Memref
import Idealize.ShloMosaic.Rules.PointsTo
import Idealize.ShloMosaic.PureOps.ShapeOps

noncomputable section

namespace Cert.KernelIdeal.Slots

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The elements of a slot

A slot is the scratch buffer's plane re-indexed without its leading axis: re-indexing keeps the set of elements,
and a rectangle of a whole buffer holds the rectangle's own elements. -/

theorem slot0_set : slot0.view.set = rect0.set :=
  (View.set_reshape (rM.view.slice rect0) _).trans (View.set_slice_whole cc0_scratch0 rect0)
theorem slot1_set : slot1.view.set = rect1.set :=
  (View.set_reshape (rM.view.slice rect1) _).trans (View.set_slice_whole cc0_scratch0 rect1)
theorem slot2_set : slot2.view.set = rect2.set :=
  (View.set_reshape (rM.view.slice rect2) _).trans (View.set_slice_whole cc0_scratch0 rect2)

/-! ## A load of a plane through the whole buffer stays inside the plane's slot -/

theorem load_sub0 : rM.view.setOn rect0.toLoadRect.set ⊆ slot0.view.set := by
  rw [slot0_set]; intro i hi
  obtain ⟨j, hj, rfl⟩ := Finset.mem_map.mp hi
  exact hj
theorem load_sub1 : rM.view.setOn rect1.toLoadRect.set ⊆ slot1.view.set := by
  rw [slot1_set]; intro i hi
  obtain ⟨j, hj, rfl⟩ := Finset.mem_map.mp hi
  exact hj
theorem load_sub2 : rM.view.setOn rect2.toLoadRect.set ⊆ slot2.view.set := by
  rw [slot2_set]; intro i hi
  obtain ⟨j, hj, rfl⟩ := Finset.mem_map.mp hi
  exact hj

/-! ## Different slots share no element: their first coordinates differ -/

theorem slot_disj01 : Disjoint slot0.view.set slot1.view.set := by
  rw [slot0_set, slot1_set]
  exact Rect.unit_disjoint (0 : Fin 3) (Or.inl (by decide))
theorem slot_disj02 : Disjoint slot0.view.set slot2.view.set := by
  rw [slot0_set, slot2_set]
  exact Rect.unit_disjoint (0 : Fin 3) (Or.inl (by decide))
theorem slot_disj12 : Disjoint slot1.view.set slot2.view.set := by
  rw [slot1_set, slot2_set]
  exact Rect.unit_disjoint (0 : Fin 3) (Or.inl (by decide))

/-! ## What lands in a slot is what the plane's load reads back

The slot's index `j` sits at the plane's index with the same row-major position; the load of the plane followed by
the shape cast reads, at `j`, the plane at that same index: the element the slot's own index `j` names. -/

omit [FloatOps F] in
theorem read_slot_of_agree {Val : EltTy → Type} (m : Memref sig .tc .vmem S3x256x256 .f32) (r : Rect S3x256x256)
    (hr : ∀ a, r.stride a = 1) (t : Shape) (hq : r.shape.Squeezes t) (hc : r.shape.ShapeCasts t)
    (g : m.view.ty.Contents Val) (X : t.Idx → Val .f32)
    (hg : ∀ j : t.Idx, g (((m.slice r hr).squeeze t hq).view.emb j)
        = _root_.cast (congrArg Val ((m.slice r hr).squeeze t hq).view.elt_eq.symm) (X j)) :
    shapeCast t (m.view.readAt Val r.toLoadRect g) hc = X := by
  funext j
  show (m.view.slice r).read Val g (Shape.reshapeEquiv hc j) = X j
  rw [View.read_apply]
  have e : (m.view.slice r).emb (Shape.reshapeEquiv hc j) = ((m.slice r hr).squeeze t hq).view.emb j := rfl
  rw [e, hg j, cast_cast, cast_eq]

/-- Writing one payload everywhere through a view gives, on the view's own elements, contents that do not depend on
    what the buffer held before. -/
theorem write_agree_on_set {σ : RefSig} {Val : EltTy → Type} {κ : Kind} {sp : Space} {s : Shape} {e : EltTy}
    (v : View σ κ sp s e) (fd fd' : v.ty.Contents Val) (w : s.Idx → Val e) :
    ∀ i ∈ v.set, v.write Val fd w Finset.univ i = v.write Val fd' w Finset.univ i := by
  intro i hi
  obtain ⟨y, -, rfl⟩ := Finset.mem_map.mp hi
  rw [View.write_emb_of_mem _ _ (Finset.mem_univ y), View.write_emb_of_mem _ _ (Finset.mem_univ y)]

omit [FloatOps F] in
/-- Contents that agree, on slot 0, with `X` written through the slot read back as `X` through the plane's load. -/
theorem read_slot0_of_agree (Val : EltTy → Type) (g fd : rM.view.ty.Contents Val) (X : S256x256.Idx → Val .f32)
    (hg : ∀ i ∈ slot0.view.set, g i = slot0.view.write Val fd X Finset.univ i) :
    shapeCast S256x256 (rM.view.readAt Val rect0.toLoadRect g) shapeCasts_S1x256x256_S256x256 = X :=
  read_slot_of_agree rM rect0 (fun _ => rfl) S256x256 squeezes_S1x256x256_S256x256 shapeCasts_S1x256x256_S256x256 g X
    fun j => (hg _ (slot0.view.emb_mem_set j)).trans (View.write_emb_of_mem _ _ (Finset.mem_univ j))

omit [FloatOps F] in
/-- `X` written into slot 0 through the slot's memref reads back as `X` through the plane's load and the shape cast. -/
theorem read_slot0 (Val : EltTy → Type) (fd : rM.view.ty.Contents Val) (X : S256x256.Idx → Val .f32) :
    shapeCast S256x256 (rM.view.readAt Val rect0.toLoadRect (slot0.view.write Val fd X Finset.univ))
      shapeCasts_S1x256x256_S256x256 = X :=
  read_slot0_of_agree Val _ fd X fun _ _ => rfl

omit [FloatOps F] in
/-- Contents that agree, on slot 1, with `X` written through the slot read back as `X` through the plane's load. -/
theorem read_slot1_of_agree (Val : EltTy → Type) (g fd : rM.view.ty.Contents Val) (X : S256x256.Idx → Val .f32)
    (hg : ∀ i ∈ slot1.view.set, g i = slot1.view.write Val fd X Finset.univ i) :
    shapeCast S256x256 (rM.view.readAt Val rect1.toLoadRect g) shapeCasts_S1x256x256_S256x256 = X :=
  read_slot_of_agree rM rect1 (fun _ => rfl) S256x256 squeezes_S1x256x256_S256x256 shapeCasts_S1x256x256_S256x256 g X
    fun j => (hg _ (slot1.view.emb_mem_set j)).trans (View.write_emb_of_mem _ _ (Finset.mem_univ j))

omit [FloatOps F] in
/-- `X` written into slot 1 through the slot's memref reads back as `X` through the plane's load and the shape cast. -/
theorem read_slot1 (Val : EltTy → Type) (fd : rM.view.ty.Contents Val) (X : S256x256.Idx → Val .f32) :
    shapeCast S256x256 (rM.view.readAt Val rect1.toLoadRect (slot1.view.write Val fd X Finset.univ))
      shapeCasts_S1x256x256_S256x256 = X :=
  read_slot1_of_agree Val _ fd X fun _ _ => rfl

omit [FloatOps F] in
/-- Contents that agree, on slot 2, with `X` written through the slot read back as `X` through the plane's load. -/
theorem read_slot2_of_agree (Val : EltTy → Type) (g fd : rM.view.ty.Contents Val) (X : S256x256.Idx → Val .f32)
    (hg : ∀ i ∈ slot2.view.set, g i = slot2.view.write Val fd X Finset.univ i) :
    shapeCast S256x256 (rM.view.readAt Val rect2.toLoadRect g) shapeCasts_S1x256x256_S256x256 = X :=
  read_slot_of_agree rM rect2 (fun _ => rfl) S256x256 squeezes_S1x256x256_S256x256 shapeCasts_S1x256x256_S256x256 g X
    fun j => (hg _ (slot2.view.emb_mem_set j)).trans (View.write_emb_of_mem _ _ (Finset.mem_univ j))

omit [FloatOps F] in
/-- `X` written into slot 2 through the slot's memref reads back as `X` through the plane's load and the shape cast. -/
theorem read_slot2 (Val : EltTy → Type) (fd : rM.view.ty.Contents Val) (X : S256x256.Idx → Val .f32) :
    shapeCast S256x256 (rM.view.readAt Val rect2.toLoadRect (slot2.view.write Val fd X Finset.univ))
      shapeCasts_S1x256x256_S256x256 = X :=
  read_slot2_of_agree Val _ fd X fun _ _ => rfl

/-! ## The whole buffer as its three slots and the rest

Each slot is carved out of what the earlier ones left (it is disjoint from them), and put back in the reverse
order; nothing is claimed about the remainder, which is carried along. -/

/-- What the three slots leave of the scratch buffer. -/
def restSet : Finset rM.view.ty.Idx := ((Finset.univ \ slot0.view.set) \ slot1.view.set) \ slot2.view.set

theorem slot1_sub : slot1.view.set ⊆ Finset.univ \ slot0.view.set :=
  Finset.subset_sdiff.mpr ⟨Finset.subset_univ _, slot_disj01.symm⟩
theorem slot2_sub : slot2.view.set ⊆ (Finset.univ \ slot0.view.set) \ slot1.view.set :=
  Finset.subset_sdiff.mpr ⟨Finset.subset_sdiff.mpr ⟨Finset.subset_univ _, slot_disj02.symm⟩, slot_disj12.symm⟩

section Split

variable {Ix : Type} [DecidableEq Ix] {Val : EltTy → Type} {Name : Type} [DecidableEq Name] {U : Type} [URA U] {Lvl : Type}

omit [FloatOps F] in
theorem scratch_split (d : Dev nD) (f : Buf Val ((d : Thread nD τ).loc cc0_scratch0)) :
    ((((d : Thread nD τ).loc cc0_scratch0) ↦{fullShare} f) : sProp (MT nD τ sig Ix Val Name U Lvl))
      ⊢ iprop((((d : Thread nD τ).loc cc0_scratch0) ↦[slot0.view.set]{fullShare} f)
          ∗ (((d : Thread nD τ).loc cc0_scratch0) ↦[slot1.view.set]{fullShare} f)
          ∗ (((d : Thread nD τ).loc cc0_scratch0) ↦[slot2.view.set]{fullShare} f)
          ∗ (((d : Thread nD τ).loc cc0_scratch0) ↦[restSet]{fullShare} f)) :=
  (pointsTo_split_subset (Finset.subset_univ slot0.view.set)).1.trans
    (sep_mono_right ((pointsTo_split_subset slot1_sub).1.trans (sep_mono_right (pointsTo_split_subset slot2_sub).1)))

omit [FloatOps F] in
theorem scratch_join (d : Dev nD) (f0 f1 f2 fr : Buf Val ((d : Thread nD τ).loc cc0_scratch0)) :
    (iprop((((d : Thread nD τ).loc cc0_scratch0) ↦[slot0.view.set]{fullShare} f0)
          ∗ (((d : Thread nD τ).loc cc0_scratch0) ↦[slot1.view.set]{fullShare} f1)
          ∗ (((d : Thread nD τ).loc cc0_scratch0) ↦[slot2.view.set]{fullShare} f2)
          ∗ (((d : Thread nD τ).loc cc0_scratch0) ↦[restSet]{fullShare} fr)) : sProp (MT nD τ sig Ix Val Name U Lvl))
      ⊢ iprop(∃ f : Buf Val ((d : Thread nD τ).loc cc0_scratch0), ((d : Thread nD τ).loc cc0_scratch0) ↦{fullShare} f) :=
  ((sep_mono_right ((sep_mono_right (pointsTo_join_subset slot2_sub)).trans (pointsTo_join_subset slot1_sub))).trans
    (pointsTo_join_subset (Finset.subset_univ slot0.view.set))).trans (exists_intro _)

end Split

/-- info: 'Cert.KernelIdeal.Slots.scratch_split' depends on axioms: [propext, Classical.choice, Quot.sound] -/
#guard_msgs in #print axioms Cert.KernelIdeal.Slots.scratch_split
/-- info: 'Cert.KernelIdeal.Slots.scratch_join' depends on axioms: [propext, Classical.choice, Quot.sound] -/
#guard_msgs in #print axioms Cert.KernelIdeal.Slots.scratch_join
/-- info: 'Cert.KernelIdeal.Slots.read_slot0' depends on axioms: [propext, Classical.choice, Quot.sound] -/
#guard_msgs in #print axioms Cert.KernelIdeal.Slots.read_slot0

end Cert.KernelIdeal.Slots

end
-- ==== Proof.Body.lean ====
/-
  One device's body, stepped from the protocol's invariant: the three signals to its peers' barrier cells (each
  handing over one of its landing slots), the wait for the three units of its own barrier cell (which brings
  the peers' slots), the three copies of its block into those slots, the six waits (each send returns a share of
  the staging buffer of `x`, each receive a slot holding a peer's block), and the sum of the four blocks.
-/
import proofs.«900736_g7700000000000737_dist_ar_v7x_xyz2x4x4_z_m256_n256_f32_1_alg».proof.Proof.Proto
import proofs.«900736_g7700000000000737_dist_ar_v7x_xyz2x4x4_z_m256_n256_f32_1_alg».proof.Proof.Slots
import Idealize.ShloMosaic.Lib.Pipeline.Value

noncomputable section

namespace Cert.KernelIdeal.Hand

open Cert.KernelIdeal Cert.KernelIdeal.Facts₀ Cert.KernelIdeal.Facts Cert.KernelIdeal.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

theorem rev0 : (0 : Fin 3).rev = 2 := rfl
theorem rev1 : (1 : Fin 3).rev = 1 := rfl
theorem rev2 : (2 : Fin 3).rev = 0 := rfl

omit [FloatOps F] in
/-- The barrier duty a device pays at its peer of offset `j + 1` hands over the payer's own slot `j`. -/
theorem barPay_peer (j : Fin 3) (c : Dev nD) :
    barPay (F := F) j (pk j c) = iprop((∃ f, slotPts c j f) ∗ reached ER (recvCell c j) 0) := by
  unfold barPay; rw [pk_rev_pk]

section Body

variable (K : Dev nD × Fin 7 → ℕ)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w

def bodyPre (c : Dev nD) : sProp 𝕄 :=
  iprop((ghost m ρ K c ∗ cred (tallyAt (barCell c) () 3) ∗ (bigSep Finset.univ fun s : Fin 3 => cred (tallyAt (recvCell c s) () N)) ∗ levAts L lv
      ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
/-- What lands in slot 2 of the peer at offset 1 is this device's block: the receive duty's payload there. -/
theorem recv_pay0 (c : Dev nD) (fn : Buf (Elt F) (slot2.view.loc (pk 0 c : Thread nD τ))) :
    (slot2.view.loc (pk 0 c : Thread nD τ) ↦[slot2.view.set]{fullShare}
        (slot2.view.write (Elt F) fn ((xM : Memref sig .tc .vmem S256x256 .f32).view.read (Elt F) (xstg m ρ c)) Finset.univ) : sProp 𝕄)
      ⊢ (ringRd m ρ).payload (recvCell (pk 0 c) 2) 0 0 := by
  rw [payload_recv]
  unfold recvPay slotPts
  rw [show pk 2 (pk 0 c) = c from pk_rev_pk 0 c]
  iintro H
  iexists fn
  simp only [Memref.view_whole, View.read_whole]
  iexact H

/-- The copy at offset 1: send cell 0 here, receive cell 2 of `pk 0 c`, landing in its slot 2. -/
theorem wp_send_ring0 (c n : Dev nD) (hn : n = pk 0 c)
    {hsc : (slot2 : Memref sig (Dev.tc n : Thread nD τ).2.kind .vmem S256x256 .f32).view.ref.isScScratch = false}
    {hsrc : (xM : Memref sig .tc .vmem S256x256 .f32).view.WordExact} {hdst : (slot2 : Memref sig .tc .vmem S256x256 .f32).view.WordExact}
    {hsem : DmaTarget.Typed .vmem (.dma rcv2.sem) (.remote (Dev.tc n : Thread nD τ) (slot2 : Memref sig .tc .vmem S256x256 .f32) (.dma snd0.sem) hsc)}
    {α : Type} {Q : α → sProp 𝕄} {k : PUnit → Prog (TpuEff nD τ sig (Elt F) Λ₀ .tc) α}
    (fn : Buf (Elt F) (slot2.view.loc (pk 0 c : Thread nD τ))) (O : CellTallies nD τ sig Unit) (W : Waits sig Unit) :
    iprop(cellInv ER (ringRd m ρ) (K (c, 1)) (sendCell c 0) ∗ cellInv ER (ringRd m ρ) (K (pk 0 c, 6)) (recvCell (pk 0 c) 2)
        ∗ xPts m ρ c (qsh 0) ∗ slotPts (pk 0 c) 2 fn
        ∗ owes (c : Thread nD τ) (O + Rt c 0) W
        ∗ dutyTok ER (sendCell c 0) 0 0 ∗ reached ER (sendCell c 0) 0
        ∗ dutyTok ER (recvCell (pk 0 c) 2) 0 0 ∗ reached ER (recvCell (pk 0 c) 2) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) slot2 (.dma snd0.sem) hsc) (.dma rcv2.sem) hsrc hdst hsem) k) Q) := by
  subst hn
  unfold xPts slotPts
  exact Rounds.wp_send_pointsTo 𝒱₀ ER (ringRd m ρ) (c : Thread nD τ) none (κ₁ := K (c, 1)) (κ₂ := K (pk 0 c, 6))
    (r₁ := 0) (r₂ := 0) (d₁ := 0) (d₂ := 0) (fd := fn)
    (show (0 : Fin 3) ∈ (ringRd m ρ).duties (sendCell c 0) 0 from by rw [duties_send]; exact Finset.mem_singleton_self _)
    (show (0 : Fin 3) ∈ (ringRd m ρ).duties (recvCell (pk 0 c) 2) 0 from by rw [duties_recv]; exact Finset.mem_singleton_self _)
    () () N rfl (amount_send m ρ c 0 0) (amount_recv m ρ (pk 0 c) 2 0) O rfl (W := W)
    (Entails.of_eq (payload_send m ρ c 0 0).symm)
    (recv_pay0 m ρ c fn)

omit [FloatOps F] in
/-- What lands in slot 1 of the peer at offset 2 is this device's block: the receive duty's payload there. -/
theorem recv_pay1 (c : Dev nD) (fn : Buf (Elt F) (slot1.view.loc (pk 1 c : Thread nD τ))) :
    (slot1.view.loc (pk 1 c : Thread nD τ) ↦[slot1.view.set]{fullShare}
        (slot1.view.write (Elt F) fn ((xM : Memref sig .tc .vmem S256x256 .f32).view.read (Elt F) (xstg m ρ c)) Finset.univ) : sProp 𝕄)
      ⊢ (ringRd m ρ).payload (recvCell (pk 1 c) 1) 0 0 := by
  rw [payload_recv]
  unfold recvPay slotPts
  rw [show pk 1 (pk 1 c) = c from pk_rev_pk 1 c]
  iintro H
  iexists fn
  simp only [Memref.view_whole, View.read_whole]
  iexact H

/-- The copy at offset 2: send cell 1 here, receive cell 1 of `pk 1 c`, landing in its slot 1. -/
theorem wp_send_ring1 (c n : Dev nD) (hn : n = pk 1 c)
    {hsc : (slot1 : Memref sig (Dev.tc n : Thread nD τ).2.kind .vmem S256x256 .f32).view.ref.isScScratch = false}
    {hsrc : (xM : Memref sig .tc .vmem S256x256 .f32).view.WordExact} {hdst : (slot1 : Memref sig .tc .vmem S256x256 .f32).view.WordExact}
    {hsem : DmaTarget.Typed .vmem (.dma rcv1.sem) (.remote (Dev.tc n : Thread nD τ) (slot1 : Memref sig .tc .vmem S256x256 .f32) (.dma snd1.sem) hsc)}
    {α : Type} {Q : α → sProp 𝕄} {k : PUnit → Prog (TpuEff nD τ sig (Elt F) Λ₀ .tc) α}
    (fn : Buf (Elt F) (slot1.view.loc (pk 1 c : Thread nD τ))) (O : CellTallies nD τ sig Unit) (W : Waits sig Unit) :
    iprop(cellInv ER (ringRd m ρ) (K (c, 2)) (sendCell c 1) ∗ cellInv ER (ringRd m ρ) (K (pk 1 c, 5)) (recvCell (pk 1 c) 1)
        ∗ xPts m ρ c (qsh 1) ∗ slotPts (pk 1 c) 1 fn
        ∗ owes (c : Thread nD τ) (O + Rt c 1) W
        ∗ dutyTok ER (sendCell c 1) 0 0 ∗ reached ER (sendCell c 1) 0
        ∗ dutyTok ER (recvCell (pk 1 c) 1) 0 0 ∗ reached ER (recvCell (pk 1 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) slot1 (.dma snd1.sem) hsc) (.dma rcv1.sem) hsrc hdst hsem) k) Q) := by
  subst hn
  unfold xPts slotPts
  exact Rounds.wp_send_pointsTo 𝒱₀ ER (ringRd m ρ) (c : Thread nD τ) none (κ₁ := K (c, 2)) (κ₂ := K (pk 1 c, 5))
    (r₁ := 0) (r₂ := 0) (d₁ := 0) (d₂ := 0) (fd := fn)
    (show (0 : Fin 3) ∈ (ringRd m ρ).duties (sendCell c 1) 0 from by rw [duties_send]; exact Finset.mem_singleton_self _)
    (show (0 : Fin 3) ∈ (ringRd m ρ).duties (recvCell (pk 1 c) 1) 0 from by rw [duties_recv]; exact Finset.mem_singleton_self _)
    () () N rfl (amount_send m ρ c 1 0) (amount_recv m ρ (pk 1 c) 1 0) O rfl (W := W)
    (Entails.of_eq (payload_send m ρ c 1 0).symm)
    (recv_pay1 m ρ c fn)

omit [FloatOps F] in
/-- What lands in slot 0 of the peer at offset 3 is this device's block: the receive duty's payload there. -/
theorem recv_pay2 (c : Dev nD) (fn : Buf (Elt F) (slot0.view.loc (pk 2 c : Thread nD τ))) :
    (slot0.view.loc (pk 2 c : Thread nD τ) ↦[slot0.view.set]{fullShare}
        (slot0.view.write (Elt F) fn ((xM : Memref sig .tc .vmem S256x256 .f32).view.read (Elt F) (xstg m ρ c)) Finset.univ) : sProp 𝕄)
      ⊢ (ringRd m ρ).payload (recvCell (pk 2 c) 0) 0 0 := by
  rw [payload_recv]
  unfold recvPay slotPts
  rw [show pk 0 (pk 2 c) = c from pk_rev_pk 2 c]
  iintro H
  iexists fn
  simp only [Memref.view_whole, View.read_whole]
  iexact H

/-- The copy at offset 3: send cell 2 here, receive cell 0 of `pk 2 c`, landing in its slot 0. -/
theorem wp_send_ring2 (c n : Dev nD) (hn : n = pk 2 c)
    {hsc : (slot0 : Memref sig (Dev.tc n : Thread nD τ).2.kind .vmem S256x256 .f32).view.ref.isScScratch = false}
    {hsrc : (xM : Memref sig .tc .vmem S256x256 .f32).view.WordExact} {hdst : (slot0 : Memref sig .tc .vmem S256x256 .f32).view.WordExact}
    {hsem : DmaTarget.Typed .vmem (.dma rcv0.sem) (.remote (Dev.tc n : Thread nD τ) (slot0 : Memref sig .tc .vmem S256x256 .f32) (.dma snd2.sem) hsc)}
    {α : Type} {Q : α → sProp 𝕄} {k : PUnit → Prog (TpuEff nD τ sig (Elt F) Λ₀ .tc) α}
    (fn : Buf (Elt F) (slot0.view.loc (pk 2 c : Thread nD τ))) (O : CellTallies nD τ sig Unit) (W : Waits sig Unit) :
    iprop(cellInv ER (ringRd m ρ) (K (c, 3)) (sendCell c 2) ∗ cellInv ER (ringRd m ρ) (K (pk 2 c, 4)) (recvCell (pk 2 c) 0)
        ∗ xPts m ρ c (qsh 2) ∗ slotPts (pk 2 c) 0 fn
        ∗ owes (c : Thread nD τ) (O + Rt c 2) W
        ∗ dutyTok ER (sendCell c 2) 0 0 ∗ reached ER (sendCell c 2) 0
        ∗ dutyTok ER (recvCell (pk 2 c) 0) 0 0 ∗ reached ER (recvCell (pk 2 c) 0) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) slot0 (.dma snd2.sem) hsc) (.dma rcv0.sem) hsrc hdst hsem) k) Q) := by
  subst hn
  unfold xPts slotPts
  exact Rounds.wp_send_pointsTo 𝒱₀ ER (ringRd m ρ) (c : Thread nD τ) none (κ₁ := K (c, 3)) (κ₂ := K (pk 2 c, 4))
    (r₁ := 0) (r₂ := 0) (d₁ := 0) (d₂ := 0) (fd := fn)
    (show (0 : Fin 3) ∈ (ringRd m ρ).duties (sendCell c 2) 0 from by rw [duties_send]; exact Finset.mem_singleton_self _)
    (show (0 : Fin 3) ∈ (ringRd m ρ).duties (recvCell (pk 2 c) 0) 0 from by rw [duties_recv]; exact Finset.mem_singleton_self _)
    () () N rfl (amount_send m ρ c 2 0) (amount_recv m ρ (pk 2 c) 0 0) O rfl (W := W)
    (Entails.of_eq (payload_send m ρ c 2 0).symm)
    (recv_pay2 m ρ c fn)

omit [FloatOps F] in
/-- Read back through the whole scratch buffer and the shape cast, each slot gives the block that landed in it: the
    stored value is the sum of the device's block and its three peers'. -/
theorem pay_eq [FloatOps F] (c : Dev nD) (fd0 fd1 fd2 : (rM : Memref sig .tc .vmem S3x256x256 .f32).view.ty.Contents (Elt F)) :
    Gen.k0_pay1 (xstg m ρ c)
      (rM.view.readAt (Elt F) rect0.toLoadRect (slot0.view.write (Elt F) fd0 (xstg m ρ (pk 0 c)) Finset.univ))
      (rM.view.readAt (Elt F) rect1.toLoadRect (slot1.view.write (Elt F) fd1 (xstg m ρ (pk 1 c)) Finset.univ))
      (rM.view.readAt (Elt F) rect2.toLoadRect (slot2.view.write (Elt F) fd2 (xstg m ρ (pk 2 c)) Finset.univ))
    = outAt m ρ c := by
  unfold Gen.k0_pay1 outAt sum4
  rw [read_slot0 (Elt F), read_slot1 (Elt F), read_slot2 (Elt F), shapeCast_self]

set_option maxHeartbeats 1600000 in
/-- The body, stepped from `bodyPre` one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [Gen.cc0_body_eq_skeleton]; unfold Gen.cc0_body_skel
  simp only [Gen.k0_part1_eq_skeleton, Gen.k0_part2_eq_skeleton, Gen.k0_part3_eq_skeleton, Gen.k0_part4_eq_skeleton, Gen.k0_part5_eq_skeleton]
  unfold Gen.k0_part1_skel Gen.k0_part2_skel Gen.k0_part3_skel Gen.k0_part4_skel Gen.k0_part5_skel
  simp only [semSignalWord, semWaitWord, Prog.lift, Prog.bind_op, Prog.bind_ret, Prog.pure_eq_ret, wp_deviceId]
  unfold bodyPre ghost positions payToks
  rw [bigSep_fin7, bigSep_fin3, bigSep_fin3]
  iintro ⟨⟨⟨⟨#Hrec, ⟨HaB, HaS0, HaS1, HaS2, HaR0, HaR1, HaR2⟩, ⟨HtB0, HtR0, HtS0⟩, ⟨HtB1, HtR1, HtS1⟩, ⟨HtB2, HtR2, HtS2⟩⟩, HcB, ⟨HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c, dev4_eq c, dev5_eq c, dev6_eq c]
  -- the scratch buffer cut into its three slots (and what is left of it)
  ihave Hs := (scratch_split (Ix := Unit) (Val := Elt F) (Name := ℕ) (U := UU) (Lvl := ℕ) c f0) $$ Hscr
  icases Hs with ⟨Hs0, Hs1, Hs2, Hrest⟩
  -- the three signals: to the peer at offset j + 1, paying duty j of its barrier cell with this device's slot j
  unfold O₀
  iapply (Rounds.wp_signal 𝒱₀ ER (ringRd m ρ) (c : Thread nD τ) none (dst := (pk 0 c : Thread nD τ)) (κ := K (pk 0 c, 0))
      (d := (0 : Fin 3)) (by rw [duties_bar]; exact Finset.mem_univ _) ((amount_bar m ρ (pk 0 c) 0).trans (by decide)) () ((OR c + Bt c 2) + Bt c 1) rfl)
    $$ [HO HtB0 Hs0]
  · isplitr; · iapply (inv_at m ρ K (pk 0 c, 0)); iexact Hrec
    isplitl [HO]; · iexact HO
    isplitl [HtB0]; · iexact HtB0
    isplitl [Hs0]
    · rw [payload_bar, barPay_peer]
      isplitl [Hs0]; · iexists f0; unfold slotPts; iexact Hs0
      iapply (reached_at m ρ K (c, ri 0)); iexact Hrec
    · iapply (reached_at m ρ K (pk 0 c, 0)); iexact Hrec
  iintro HO
  iapply (Rounds.wp_signal 𝒱₀ ER (ringRd m ρ) (c : Thread nD τ) none (dst := (pk 1 c : Thread nD τ)) (κ := K (pk 1 c, 0))
      (d := (1 : Fin 3)) (by rw [duties_bar]; exact Finset.mem_univ _) ((amount_bar m ρ (pk 1 c) 1).trans (by decide)) () (OR c + Bt c 2) rfl)
    $$ [HO HtB1 Hs1]
  · isplitr; · iapply (inv_at m ρ K (pk 1 c, 0)); iexact Hrec
    isplitl [HO]; · iexact HO
    isplitl [HtB1]; · iexact HtB1
    isplitl [Hs1]
    · rw [payload_bar, barPay_peer]
      isplitl [Hs1]; · iexists f0; unfold slotPts; iexact Hs1
      iapply (reached_at m ρ K (c, ri 1)); iexact Hrec
    · iapply (reached_at m ρ K (pk 1 c, 0)); iexact Hrec
  iintro HO
  iapply (Rounds.wp_signal 𝒱₀ ER (ringRd m ρ) (c : Thread nD τ) none (dst := (pk 2 c : Thread nD τ)) (κ := K (pk 2 c, 0))
      (d := (2 : Fin 3)) (by rw [duties_bar]; exact Finset.mem_univ _) ((amount_bar m ρ (pk 2 c) 2).trans (by decide)) () (OR c) rfl)
    $$ [HO HtB2 Hs2]
  · isplitr; · iapply (inv_at m ρ K (pk 2 c, 0)); iexact Hrec
    isplitl [HO]; · iexact HO
    isplitl [HtB2]; · iexact HtB2
    isplitl [Hs2]
    · rw [payload_bar, barPay_peer]
      isplitl [Hs2]; · iexists f0; unfold slotPts; iexact Hs2
      iapply (reached_at m ρ K (c, ri 2)); iexact Hrec
    · iapply (reached_at m ρ K (pk 2 c, 0)); iexact Hrec
  iintro HO
  -- the WAIT for the barrier cell's three units, owing the three receive credits: the peers' slots come with it
  iapply (Rounds.wp_wait_rest_token 𝒱₀ ER (ringRd m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HaB]
  · isplitr; · iapply (inv_at m ρ K (c, 0)); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  rw [rev0, rev1, rev2]
  icases Hp with ⟨⟨⟨%fn0, Hn0⟩, #Hr0⟩, ⟨⟨%fn1, Hn1⟩, #Hr1⟩, ⟨%fn2, Hn2⟩, #Hr2⟩
  -- the staging buffer of x in three shares, one per copy
  ihave Hxs := (pointsTo_share (PosShare.mem_left_op_right fullShare)).1 $$ Hx
  icases Hxs with ⟨Hx0, Hxr⟩
  ihave Hxs := (pointsTo_share (PosShare.mem_left_op_right fullShare.right)).1 $$ Hxr
  icases Hxs with ⟨Hx1, Hx2⟩
  unfold OR
  -- the copy at offset 1: into slot 2 of `pk 0 c`
  iapply (wp_send_ring0 m ρ K c _ (dev4_eq c) fn2 (Rt c 2 + Rt c 1) _) $$ [Hx0 Hn2 HO HtS0 HtR0]
  · isplitr; · iapply (inv_at m ρ K (c, 1)); iexact Hrec
    isplitr; · iapply (inv_at m ρ K (pk 0 c, 6)); iexact Hrec
    isplitl [Hx0]; · rw [xPts_eq]; iexact Hx0
    isplitl [Hn2]; · iexact Hn2
    isplitl [HO]; · iexact HO
    isplitl [HtS0]; · iexact HtS0
    isplitr; · iapply (reached_at m ρ K (c, 1)); iexact Hrec
    isplitl [HtR0]; · iexact HtR0
    iexact Hr2
  iintro ⟨HcS0, HO⟩
  -- the copy at offset 2: into slot 1 of `pk 1 c`
  iapply (wp_send_ring1 m ρ K c _ (dev5_eq c) fn1 (Rt c 2) _) $$ [Hx1 Hn1 HO HtS1 HtR1]
  · isplitr; · iapply (inv_at m ρ K (c, 2)); iexact Hrec
    isplitr; · iapply (inv_at m ρ K (pk 1 c, 5)); iexact Hrec
    isplitl [Hx1]; · rw [xPts_eq]; iexact Hx1
    isplitl [Hn1]; · iexact Hn1
    isplitl [HO]; · iexact HO
    isplitl [HtS1]; · iexact HtS1
    isplitr; · iapply (reached_at m ρ K (c, 2)); iexact Hrec
    isplitl [HtR1]; · iexact HtR1
    iexact Hr1
  iintro ⟨HcS1, HO⟩
  -- the copy at offset 3: into slot 0 of `pk 2 c`
  iapply (wp_send_ring2 m ρ K c _ (dev6_eq c) fn0 0 _) $$ [Hx2 Hn0 HO HtS2 HtR2]
  · isplitr; · iapply (inv_at m ρ K (c, 3)); iexact Hrec
    isplitr; · iapply (inv_at m ρ K (pk 2 c, 4)); iexact Hrec
    isplitl [Hx2]; · rw [xPts_eq]; iexact Hx2
    isplitl [Hn0]; · iexact Hn0
    isplitl [HO]; · rw [zero_add]; iexact HO
    isplitl [HtS2]; · iexact HtS2
    isplitr; · iapply (reached_at m ρ K (c, 3)); iexact Hrec
    isplitl [HtR2]; · iexact HtR2
    iexact Hr0
  iintro ⟨HcS2, HO⟩
  -- the wait on send cell 0: its share of the staging buffer of x back
  iapply (Rounds.wp_wait_rest_token 𝒱₀ ER (ringRd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iapply (inv_at m ρ K (c, 1)); iexact Hrec
    isplitl [HcS0]; · iexact HcS0
    isplitl [HO]; · iexact HO
    isplitr; · rw [MayWait_zero]; iempintro
    iexact HaS0
  iintro ⟨HO, HaS0, -, Hpay⟩
  ihave Hx0 := (Entails.of_eq ((rest_send m ρ c 0).trans (by unfold sendPay; exact xPts_eq m ρ c fullShare.left))) $$ Hpay
  -- the wait on receive cell 2: slot 2 holding `pk 2 c`'s block
  iapply (Rounds.wp_wait_rest_token 𝒱₀ ER (ringRd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ c 2).symm)) $$ [HcR2 HO HaR2]
  · isplitr; · iapply (inv_at m ρ K (c, 6)); iexact Hrec
    isplitl [HcR2]; · iexact HcR2
    isplitl [HO]; · iexact HO
    isplitr; · rw [MayWait_zero]; iempintro
    iexact HaR2
  iintro ⟨HO, HaR2, -, Hpay⟩
  ihave Hl2 := (Entails.of_eq (rest_recv m ρ c 2)) $$ Hpay
  unfold recvPay
  icases Hl2 with ⟨%fd2, Hl2⟩
  -- the wait on send cell 1: its share of the staging buffer of x back
  iapply (Rounds.wp_wait_rest_token 𝒱₀ ER (ringRd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iapply (inv_at m ρ K (c, 2)); iexact Hrec
    isplitl [HcS1]; · iexact HcS1
    isplitl [HO]; · iexact HO
    isplitr; · rw [MayWait_zero]; iempintro
    iexact HaS1
  iintro ⟨HO, HaS1, -, Hpay⟩
  ihave Hx1 := (Entails.of_eq ((rest_send m ρ c 1).trans (by unfold sendPay; exact xPts_eq m ρ c fullShare.right.left))) $$ Hpay
  -- the wait on receive cell 1: slot 1 holding `pk 1 c`'s block
  iapply (Rounds.wp_wait_rest_token 𝒱₀ ER (ringRd m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m ρ c 1).symm)) $$ [HcR1 HO HaR1]
  · isplitr; · iapply (inv_at m ρ K (c, 5)); iexact Hrec
    isplitl [HcR1]; · iexact HcR1
    isplitl [HO]; · iexact HO
    isplitr; · rw [MayWait_zero]; iempintro
    iexact HaR1
  iintro ⟨HO, HaR1, -, Hpay⟩
  ihave Hl1 := (Entails.of_eq (rest_recv m ρ c 1)) $$ Hpay
  unfold recvPay
  icases Hl1 with ⟨%fd1, Hl1⟩
  -- the wait on send cell 2: its share of the staging buffer of x back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iapply (inv_at m ρ K (c, 3)); iexact Hrec
    isplitl [HcS2]; · iexact HcS2
    isplitl [HO]; · iexact HO
    isplitr; · rw [MayWait_zero]; iempintro
    iexact HaS2
  iintro ⟨HO, HaS2, -, Hpay⟩
  ihave Hx2 := (Entails.of_eq ((rest_send m ρ c 2).trans (by unfold sendPay; exact xPts_eq m ρ c fullShare.right.right))) $$ Hpay
  -- the wait on receive cell 0: slot 0 holding `pk 0 c`'s block
  iapply (Rounds.wp_wait_rest_token 𝒱₀ ER (ringRd m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m ρ c 0).symm)) $$ [HcR0 HO HaR0]
  · isplitr; · iapply (inv_at m ρ K (c, 4)); iexact Hrec
    isplitl [HcR0]; · iexact HcR0
    isplitl [HO]; · iexact HO
    isplitr; · rw [MayWait_zero]; iempintro
    iexact HaR0
  iintro ⟨HO, HaR0, -, Hpay⟩
  ihave Hl0 := (Entails.of_eq (rest_recv m ρ c 0)) $$ Hpay
  unfold recvPay
  icases Hl0 with ⟨%fd0, Hl0⟩
  -- the six own cells close: their counters at zero are the core's again
  imod (Rounds.cell_close ER (ringRd m ρ) (Set.mem_univ (K (c, 1))) (fun h => h) (R := 0 + 1) (duties_later m ρ (kcell (c, 1)))) $$ [HaS0] with Hz1
  · isplitr; · iapply (inv_at m ρ K (c, 1)); iexact Hrec
    iexact HaS0
  imod (Rounds.cell_close ER (ringRd m ρ) (Set.mem_univ (K (c, 2))) (fun h => h) (R := 0 + 1) (duties_later m ρ (kcell (c, 2)))) $$ [HaS1] with Hz2
  · isplitr; · iapply (inv_at m ρ K (c, 2)); iexact Hrec
    iexact HaS1
  imod (Rounds.cell_close ER (ringRd m ρ) (Set.mem_univ (K (c, 3))) (fun h => h) (R := 0 + 1) (duties_later m ρ (kcell (c, 3)))) $$ [HaS2] with Hz3
  · isplitr; · iapply (inv_at m ρ K (c, 3)); iexact Hrec
    iexact HaS2
  imod (Rounds.cell_close ER (ringRd m ρ) (Set.mem_univ (K (c, 4))) (fun h => h) (R := 0 + 1) (duties_later m ρ (kcell (c, 4)))) $$ [HaR0] with Hz4
  · isplitr; · iapply (inv_at m ρ K (c, 4)); iexact Hrec
    iexact HaR0
  imod (Rounds.cell_close ER (ringRd m ρ) (Set.mem_univ (K (c, 5))) (fun h => h) (R := 0 + 1) (duties_later m ρ (kcell (c, 5)))) $$ [HaR1] with Hz5
  · isplitr; · iapply (inv_at m ρ K (c, 5)); iexact Hrec
    iexact HaR1
  imod (Rounds.cell_close ER (ringRd m ρ) (Set.mem_univ (K (c, 6))) (fun h => h) (R := 0 + 1) (duties_later m ρ (kcell (c, 6)))) $$ [HaR2] with Hz6
  · isplitr; · iapply (inv_at m ρ K (c, 6)); iexact Hrec
    iexact HaR2
  -- the staging buffer of x whole again
  ihave Hxr := (pointsTo_share (PosShare.mem_left_op_right fullShare.right)).2 $$ [Hx1 Hx2]
  · isplitl [Hx1]; · iexact Hx1
    iexact Hx2
  ihave Hx := (pointsTo_share (PosShare.mem_left_op_right fullShare)).2 $$ [Hx0 Hxr]
  · isplitl [Hx0]; · iexact Hx0
    iexact Hxr
  -- the loads and the store
  unfold slotPts
  iapply (wp_load 𝒱₀ (c : Thread nD τ) none Set.univ (m := xM) (Finset.subset_univ _)) $$ Hx; iintro Hx
  rw [read_x]
  iapply (wp_load 𝒱₀ (c : Thread nD τ) none Set.univ (m := rM) load_sub0) $$ Hl0; iintro Hl0
  iapply (wp_load 𝒱₀ (c : Thread nD τ) none Set.univ (m := rM) load_sub1) $$ Hl1; iintro Hl1
  iapply (wp_load 𝒱₀ (c : Thread nD τ) none Set.univ (m := rM) load_sub2) $$ Hl2; iintro Hl2
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  -- the scratch buffer put back together
  ihave Hscr := (scratch_join (Ix := Unit) (Val := Elt F) (Name := ℕ) (U := UU) (Lvl := ℕ) c _ _ _ f0) $$ [Hl0 Hl1 Hl2 Hrest]
  · isplitl [Hl0]; · iexact Hl0
    isplitl [Hl1]; · iexact Hl1
    isplitl [Hl2]; · iexact Hl2
    iexact Hrest
  iapply Hk
  unfold bodyPost Φ₁ Dat.owesAt Pipeline.owesWithin
  rw [show (dats m ρ 0 c).owed t₀.succ = 0 from rfl, bigSep_fin6]
  isplitl [Hscr Hz1 Hz2 Hz3 Hz4 Hz5 Hz6]
  · isplitl [Hscr]; · iexact Hscr
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists (insert (SemLoc.dma rcv0.sem, ()) (insert (SemLoc.dma snd2.sem, ()) (insert (SemLoc.dma rcv1.sem, ()) (insert (SemLoc.dma snd1.sem, ())
      (insert (SemLoc.dma rcv2.sem, ()) (insert (SemLoc.dma snd0.sem, ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; exact pay_eq m ρ c fd0 fd1 fd2)
  iexact Hout

end Body

omit [FloatOps F] in
theorem bigSep_W (Φ : Fin cfg0.W → sProp 𝕄) : bigSep Finset.univ Φ = iprop(Φ (0 : Fin 2) ∗ Φ (1 : Fin 2)) := Gen.bigSep_W0 Φ

set_option maxRecDepth 4000 in
/-- The library's body obligation on core `c`: the pipeline's statement of the one grid point, handed to `sound_body`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Hand.body_obligation' depends on axioms: [propext, Classical.choice, Quot.sound] -/
#guard_msgs in #print axioms body_obligation

end Cert.KernelIdeal.Hand

end
-- ==== Proof.RingGhost.lean ====
/-
  The ghost-state side of the launch of the all-reduce on the ring of four.

  The launch element of the ring's copy of the rounds algebra is spent on every device's seven cells — barrier,
  three send, three receive — at round 0, and on the nine duty tokens of a device's OWN cells: its barrier's three
  duties, and the one duty of each send and each receive cell.  The global step then allocates every cell's
  invariant under one update (a barrier cell's invariant is shared by the four devices of its ring) and deals
  the tokens round the ring to the devices that PAY the duties: duty `j` of a barrier cell goes to the device
  `j + 1` places behind its owner, the duty of receive cell `2 - j` likewise, and a send cell's duty stays.
  The invariants and the reached-marks are persistent, so every device keeps a copy of all of them.
-/
import proofs.«900736_g7700000000000737_dist_ar_v7x_xyz2x4x4_z_m256_n256_f32_1_alg».proof.Proof.Proto

noncomputable section

namespace Cert.KernelIdeal.Hand

open Cert.KernelIdeal Cert.KernelIdeal.Facts₀ Cert.KernelIdeal.Facts Cert.KernelIdeal.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens -/

theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's seven cells. -/
def ringCells : Finset (GSem nD τ sig) := Finset.univ.map ⟨kcell, kcell_injective⟩

/-- Which cell and which duty a minted token is of, by offset `j` and kind: the barrier's duty `j`, the one duty of
    send cell `j`, the one duty of receive cell `j`. -/
abbrev tokIx (jt : Fin 3 × Fin 3) : Fin 7 × Fin 3 := match jt.2 with
  | 0 => (0, jt.1) | 1 => (si jt.1, 0) | 2 => (ri jt.1, 0)
theorem tokIx_injective : Function.Injective tokIx := by decide

/-- A device's own cells' duty tokens as minted: (device, offset, kind). -/
abbrev tokOf (cj : Dev nD × Fin 3 × Fin 3) : GSem nD τ sig × ℕ × Fin 3 :=
  (kcell (cj.1, (tokIx cj.2).1), 0, (tokIx cj.2).2)
theorem tokOf_injective : Function.Injective (tokOf : Dev nD × Fin 3 × Fin 3 → GSem nD τ sig × ℕ × Fin 3) := by
  rintro ⟨c, jt⟩ ⟨c', jt'⟩ h
  have h1 : (c, (tokIx jt).1) = (c', (tokIx jt').1) :=
    kcell_injective (congrArg (fun x : GSem nD τ sig × ℕ × Fin 3 => x.1) h)
  have h2 : (tokIx jt).2 = (tokIx jt').2 := congrArg (fun x : GSem nD τ sig × ℕ × Fin 3 => x.2.2) h
  have hc : c = c' := congrArg Prod.fst h1
  have hj : jt = jt' := tokIx_injective (Prod.ext (congrArg Prod.snd h1) h2)
  subst hc; subst hj; rfl
def ringToks : Finset (GSem nD τ sig × ℕ × Fin 3) := Finset.univ.map ⟨tokOf, tokOf_injective⟩

/-- The launch element: the pipeline's copy, and the ring's cells and tokens. -/
def u₀ : UU :=
  (initOf (Pipeline.cells cfgs Gen.cellOf_inj) (Pipeline.launchToks cfgs Gen.cellOf_inj), initOf ringCells ringToks)

omit [FloatOps F] in
/-- The ring's launch element funds, per device, its seven cells at round 0 and the tokens of its own cells' duties. -/
theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    exact bigSep_congr fun j _ => by rw [bigSep_fin3]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch element splits into the pipeline's half and the ring's, and the ring's is funded. -/
theorem hu₀ : (ownU u₀ : sProp 𝕄)
    ⊢ |={Set.univ}=> iprop(BI.own (EP (initOf (Pipeline.cells cfgs Gen.cellOf_inj) (Pipeline.launchToks cfgs Gen.cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The semaphores the global step is handed -/

omit [FloatOps F] in
/-- The kernel's own semaphores are the three send and the three receive semaphores; -/
theorem ownSems0_eq (c : Dev nD) : (Pipeline.ownSems0 (Ix := Unit) (Name := ℕ) (U := UU) (Lvl := ℕ) (Val := Elt F) (τ := τ) osem c : sProp 𝕄)
    = bigSep Finset.univ fun k : Fin 6 => semVal ((c : Thread nD τ), osem k) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together: each of the device's seven cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin6, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
/-- One device's part of the global step: each of its seven cells, counter at zero and round state at round 0, becomes
    the cell's invariant at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring, and every device's ghost state -/

omit [FloatOps F] in
/-- Under names for all the cells, a device's positions and the tokens it pays with are its ghost state. -/
theorem ghost_intro (K : Dev nD × Fin 7 → ℕ) (c : Dev nD) : iprop(records m ρ K ∗ positions c ∗ payToks c) ⊢ G' m ρ c := by
  unfold G' ghost
  iintro H
  iexists K
  iexact H

omit [FloatOps F] in
/-- The tokens dealt round the ring: a barrier cell's duty-`j` token and the token of receive cell `2 - j` go from their
    owner `pk j c` to the device `c` that pays them; a send cell's token stays with its owner. -/
theorem toks_around : (bigSep Finset.univ fun c : Dev nD => (toks c : sProp 𝕄)) ⊢ bigSep Finset.univ fun c : Dev nD => payToks c := by
  have hB (j : Fin 3) : (bigSep Finset.univ fun c : Dev nD => (dutyTok ER (barCell c) 0 j : sProp 𝕄))
      = bigSep Finset.univ fun c : Dev nD => dutyTok ER (barCell (pk j c)) 0 j :=
    bigSep_univ_equiv (rot j) _
  have hR0 : (bigSep Finset.univ fun c : Dev nD => (dutyTok ER (recvCell c 2) 0 0 : sProp 𝕄))
      = bigSep Finset.univ fun c : Dev nD => dutyTok ER (recvCell (pk 0 c) (Fin.rev 0)) 0 0 :=
    bigSep_univ_equiv (rot 0) (fun c : Dev nD => (dutyTok ER (recvCell c 2) 0 0 : sProp 𝕄))
  have hR1 : (bigSep Finset.univ fun c : Dev nD => (dutyTok ER (recvCell c 1) 0 0 : sProp 𝕄))
      = bigSep Finset.univ fun c : Dev nD => dutyTok ER (recvCell (pk 1 c) (Fin.rev 1)) 0 0 :=
    bigSep_univ_equiv (rot 1) (fun c : Dev nD => (dutyTok ER (recvCell c 1) 0 0 : sProp 𝕄))
  have hR2 : (bigSep Finset.univ fun c : Dev nD => (dutyTok ER (recvCell c 0) 0 0 : sProp 𝕄))
      = bigSep Finset.univ fun c : Dev nD => dutyTok ER (recvCell (pk 2 c) (Fin.rev 2)) 0 0 :=
    bigSep_univ_equiv (rot 2) (fun c : Dev nD => (dutyTok ER (recvCell c 0) 0 0 : sProp 𝕄))
  unfold toks payToks
  simp only [bigSep_fin3, bigSep_sep']
  iintro ⟨⟨B0, B1, B2⟩, ⟨S0, S1, S2⟩, R0, R1, R2⟩
  ihave B0' := (Entails.of_eq (hB 0)) $$ B0
  ihave B1' := (Entails.of_eq (hB 1)) $$ B1
  ihave B2' := (Entails.of_eq (hB 2)) $$ B2
  ihave R0' := (Entails.of_eq hR2) $$ R0
  ihave R1' := (Entails.of_eq hR1) $$ R1
  ihave R2' := (Entails.of_eq hR0) $$ R2
  isplitl [B0' B1' B2']
  · isplitl [B0']; · iexact B0'
    isplitl [B1']; · iexact B1'
    iexact B2'
  isplitl [R0' R1' R2']
  · isplitl [R2']; · iexact R2'
    isplitl [R1']; · iexact R1'
    iexact R0'
  isplitl [S0]; · iexact S0
  isplitl [S1]; · iexact S1
  iexact S2

omit [FloatOps F] in
/-- A persistent assertion beside a `bigSep` can be used at every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' allocated cells, positions, reached-marks and minted tokens, regrouped: the invariants' names gathered
    into one function, the invariants and the reached-marks copied to every device, the tokens dealt to their payers. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

omit [FloatOps F] in
/-- The global step: own and unscoped semaphores of every device at once, every cell's invariant allocated, the tokens
    dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.Hand.hu₀' depends on axioms: [propext, Classical.choice, Quot.sound] -/
#guard_msgs in #print axioms hu₀
/-- info: 'Cert.KernelIdeal.Hand.glob' depends on axioms: [propext, Classical.choice, Quot.sound] -/
#guard_msgs in #print axioms glob

end Cert.KernelIdeal.Hand

end
-- ==== Proof.RingRun.lean ====
/-
  The all-reduce's run on the mesh: the credit each device is dealt at launch for the units its peers owe its
  cells, the hand-overs between the launch and the proof data at the one grid point, and the run of @main from
  every device's body: each device's result array ends holding its block plus its three peers', the argument
  arrays unchanged.
-/
import proofs.«900736_g7700000000000737_dist_ar_v7x_xyz2x4x4_z_m256_n256_f32_1_alg».proof.Proof.Proto
import proofs.«900736_g7700000000000737_dist_ar_v7x_xyz2x4x4_z_m256_n256_f32_1_alg».proof.Proof.Gen.KernelIdeal.Points
import Idealize.ShloMosaic.Lib.Pipeline.Cells

noncomputable section

namespace Cert.KernelIdeal.Hand

open Cert.KernelIdeal Cert.KernelIdeal.Facts₀ Cert.KernelIdeal.Facts Cert.KernelIdeal.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's layout facts -/

theorem ownSemFacts : Pipeline.OwnSemFacts cfg0.spec osem := by decide

theorem share_eq (c : Dev nD) (w : Fin cfg0.W) : (dats m ρ 0 c).share w = fullShare := by unfold Dat.share; split <;> rfl

omit [FloatOps F] in
/-- The kernel's own semaphores at zero, one by one. -/
theorem ownSems0_eq' (c : Dev nD) :
    (Pipeline.ownSems0 (Ix := Unit) (Name := ℕ) (U := UU) (Lvl := ℕ) (Val := Elt F) (τ := τ) osem c : sProp 𝕄)
      = bigSep Finset.univ fun k : Fin 6 => semVal ((c : Thread nD τ), osem k) 0 := rfl

/-! ## The launch credit

Each of the six summands of what a device owes at launch is one tally on a cell of its peer at a fixed offset; the
peer map at an offset is a permutation of the devices, so summed over the devices each cell is owed exactly once
per summand: a device's barrier cell one unit from each of its three peers, its receive cell `s` the block's credit
from the one peer that copies into slot `s`. -/

omit [FloatOps F] in
theorem cred_bar1 (j : Fin 3) (c : Dev nD) :
    (Pipeline.launchCred (fun d => Bt d j) c : sProp 𝕄) ⊢ cred (tallyAt (barCell c) () 1) :=
  Pipeline.launchCred_tallyAt (csem 0) (pk j) (pk j.rev) (pk_pk_rev j) (pk_rev_pk j) () 1 c

omit [FloatOps F] in
theorem cred_recv1 (j : Fin 3) (c : Dev nD) :
    (Pipeline.launchCred (fun d => Rt d j) c : sProp 𝕄) ⊢ cred (tallyAt (recvCell c j.rev) () N) :=
  Pipeline.launchCred_tallyAt (csem (ri j.rev)) (pk j) (pk j.rev) (pk_pk_rev j) (pk_rev_pk j) () N c

omit [FloatOps F] in
theorem launchCred_O₀ (c : Dev nD) :
    (Pipeline.launchCred O₀ c : sProp 𝕄)
      = iprop((((((Pipeline.launchCred (fun d => Rt d 2) c ∗ Pipeline.launchCred (fun d => Rt d 1) c) ∗ Pipeline.launchCred (fun d => Rt d 0) c)
          ∗ Pipeline.launchCred (fun d => Bt d 2) c) ∗ Pipeline.launchCred (fun d => Bt d 1) c) ∗ Pipeline.launchCred (fun d => Bt d 0) c)) := by
  show (Pipeline.launchCred (fun d => ((((Rt d 2 + Rt d 1) + Rt d 0) + Bt d 2) + Bt d 1) + Bt d 0) c : sProp 𝕄) = _
  rw [Pipeline.launchCred_add, Pipeline.launchCred_add, Pipeline.launchCred_add, Pipeline.launchCred_add, Pipeline.launchCred_add]

omit [FloatOps F] in
/-- Three units on one cell are one credit of three. -/
theorem cred_three (g : GSem nD τ sig) :
    (iprop(cred (tallyAt g () 1) ∗ cred (tallyAt g () 1) ∗ cred (tallyAt g () 1)) : sProp 𝕄) ⊢ cred (tallyAt g () 3) :=
  (sep_mono_right (cred_add _ _).2).trans ((cred_add _ _).2.trans (Entails.of_eq (by rw [tallyAt_add, tallyAt_add])))

omit [FloatOps F] in
theorem creds (c : Dev nD) :
    (Pipeline.launchCred O₀ c : sProp 𝕄)
      ⊢ iprop(cred (tallyAt (barCell c) () 3) ∗ bigSep Finset.univ fun s : Fin 3 => cred (tallyAt (recvCell c s) () N)) := by
  rw [launchCred_O₀, bigSep_fin3]
  iintro ⟨⟨⟨⟨⟨HR2, HR1⟩, HR0⟩, HB2⟩, HB1⟩, HB0⟩
  isplitl [HB0 HB1 HB2]
  · iapply (cred_three (F := F) (barCell c))
    isplitl [HB0]; · iapply (cred_bar1 (F := F) 0 c); iexact HB0
    isplitl [HB1]; · iapply (cred_bar1 (F := F) 1 c); iexact HB1
    iapply (cred_bar1 (F := F) 2 c); iexact HB2
  · isplitl [HR2]; · iapply (cred_recv1 (F := F) 2 c); iexact HR2
    isplitl [HR1]; · iapply (cred_recv1 (F := F) 1 c); iexact HR1
    iapply (cred_recv1 (F := F) 0 c); iexact HR0

/-! ## Between the launch and the proof data -/

omit [FloatOps F] in
/-- What the launch hands device `c` is what its body starts from: the ring's ghost state, the launch credit read
    cell by cell, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN⟩
  imodintro
  unfold start G'
  isplitl
  · isplitl [HG]; · iexact HG
    isplitl [H3]; · iexact H3
    isplitl [HN]; · iexact HN
    iexact Hlev
  · iempintro

/-- At the region's entry the scratch buffer arrives whole, at some contents. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, Gen.scopedRest0_eq]
  unfold Φ₀
  iintro ⟨Hs, -, Hr⟩
  isplitl [Hs]; · iexact Hs
  iexact Hr

/-- At its exit the scratch buffer goes back whole and the six own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, Gen.scopedRest0_eq, ownSems0_eq']
  unfold Φ₁
  iintro ⟨Hr, Hz⟩
  isplitr; · iempintro
  isplitl [Hz]; · iexact Hz
  iexact Hr

/-- The two staging semaphores are none of the protocol's seven: they sit at level 0, below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (lv_other c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh, for any float values, from any memory with zero counters: given the ring's ghost state at
    launch and every device's body, every weakly fair execution of @main terminates, and every final state has each
    device's two windowed arrays at the proof data's final contents. -/
theorem run_main (u₀ : UU)
    (hu₀ : (ownU u₀ : sProp 𝕄) ⊢ |={Set.univ}=> iprop(BI.own (EP (initOf (Pipeline.cells cfgs Gen.cellOf_inj) (Pipeline.launchToks cfgs Gen.cellOf_inj))) ∗ bigSep Finset.univ (G m ρ)))
    (hglob : (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ))
    (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := hbody) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the kernel's result: its one write-back writes the whole array with what the
    body left in the staging buffer. -/
theorem finalA_out (c : Dev nD) : finalA m ρ c (1 : Fin 2) = outAt m ρ c := by
  have h := (dats (F := F) m ρ 0 c).arrAt_succ (1 : Fin 2) t₀
  rw [Gen.flush0_1 t₀, if_pos rfl] at h
  exact h.trans (Memref.write_access_unit_zero_univ (Elt F) main_v1 (funext fun a => Nat.zero_mul _) _ _ _)

/-- The run with its values named: from any memory with zero counters, every weakly fair execution of @main terminates,
    and in every final state each device's result array holds its block plus its three peers' and its argument array
    what it held. -/
theorem run_strong (u₀ : UU)
    (hu₀ : (ownU u₀ : sProp 𝕄) ⊢ |={Set.univ}=> iprop(BI.own (EP (initOf (Pipeline.cells cfgs Gen.cellOf_inj) (Pipeline.launchToks cfgs Gen.cellOf_inj))) ∗ bigSep Finset.univ (G m ρ)))
    (hglob : (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ))
    (hbody : ∀ c : Dev nD, BodyObligation (dats (F := F) m ρ 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outAt m ρ c
        ∧ r.2.mem ((c.tc : Thread nD τ).loc main_arg0) = m ((c.tc : Thread nD τ).loc main_arg0)) :=
  (θ_run defs (onTc (τ := τ) (main (F := F))) (s₀ m ρ)).mono
    (fun r hr c => ⟨(hr c (1 : Fin 2)).trans (finalA_out m ρ c), (hr c (0 : Fin 2)).trans (finalA_x m ρ c)⟩)
    (run_main m ρ u₀ hu₀ hglob hbody)

/-- info: 'Cert.KernelIdeal.Hand.run_strong' depends on axioms: [propext, Classical.choice, Quot.sound] -/
#guard_msgs in #print axioms Cert.KernelIdeal.Hand.run_strong

end Cert.KernelIdeal.Hand

end
-- ==== Proof.WSlotDefs.lean ====
/-
  The scratch buffer f32[3, 256, 256] seen as three landing slots of f32[256, 256]: slot `s` is the plane of
  first coordinate `s`, reached as the kernel reaches it — a unit-stride slice at offsets (s, 0, 0) of sizes
  (1, 256, 256) with the leading axis of size one dropped.
-/
import proofs.«900736_g7700000000000737_dist_ar_v7x_xyz2x4x4_z_m256_n256_f32_1_alg».proof.Proof.Gen.Kernel

noncomputable section

namespace Cert.Kernel.Slots

open Cert.Kernel Cert.Kernel.Facts₀ Cert.Kernel.Facts
open Idealize.ShloMosaic

/-- The scratch buffer, whole. -/
abbrev rM : Memref sig .tc .vmem S3x256x256 .f32 := Memref.whole cc0_scratch0

/-- The plane of first coordinate 0, 1, 2 as a rectangle of the scratch buffer. -/
abbrev rect0 : Rect S3x256x256 := Rect.unit (s := S3x256x256) ![0, 0, 0] S1x256x256.size inb_S3x256x256_S1x256x256_0_0_0
abbrev rect1 : Rect S3x256x256 := Rect.unit (s := S3x256x256) ![1, 0, 0] S1x256x256.size inb_S3x256x256_S1x256x256_1_0_0
abbrev rect2 : Rect S3x256x256 := Rect.unit (s := S3x256x256) ![2, 0, 0] S1x256x256.size inb_S3x256x256_S1x256x256_2_0_0

/-- The three landing slots: each plane as a memref of f32[256, 256]. -/
abbrev slot0 : Memref sig .tc .vmem S256x256 .f32 := (rM.slice rect0 (fun _ => rfl)).squeeze S256x256 squeezes_S1x256x256_S256x256
abbrev slot1 : Memref sig .tc .vmem S256x256 .f32 := (rM.slice rect1 (fun _ => rfl)).squeeze S256x256 squeezes_S1x256x256_S256x256
abbrev slot2 : Memref sig .tc .vmem S256x256 .f32 := (rM.slice rect2 (fun _ => rfl)).squeeze S256x256 squeezes_S1x256x256_S256x256

end Cert.Kernel.Slots

end
-- ==== Proof.WProto.lean ====
/-
  The all-reduce's protocol on the ring of four devices along the last mesh axis.

  Device `c` signals the barrier semaphore of its three peers `pk j c` (offsets 1, 2, 3) and waits for three
  units on its own: one unit from each peer, so once the wait passes all three peers have entered the kernel.
  It then copies its block of `x` into a landing slot of each peer — the copy at offset `j + 1` lands in slot
  `2 - j` of `pk j c`, crediting send semaphore `j` here and receive semaphore `2 - j` there —, waits for its
  three sends and its three receives, and adds its block to the three that landed.  Seen from the receiver,
  slot `s` of device `c` is written by `pk s c`.

  Under the rounds discipline every semaphore has ONE round.  A barrier cell has three duties of one unit,
  duty `j` paid by the peer whose offset-`(j+1)` signal reaches it; with its unit that peer hands over its
  own landing slot `j` — the slot this device's copy will write — and the fact that it stands at round 0 of
  that slot's receive cell.  A send cell has one duty of the block's credit, handing back the share of `x`
  the copy read; a receive cell one duty of the block's credit, handing its owner the slot holding the
  sender's block.
-/
import proofs.«900736_g7700000000000737_dist_ar_v7x_xyz2x4x4_z_m256_n256_f32_1_alg».proof.Proof.Peers
import proofs.«900736_g7700000000000737_dist_ar_v7x_xyz2x4x4_z_m256_n256_f32_1_alg».proof.Proof.WSlotDefs
import proofs.«900736_g7700000000000737_dist_ar_v7x_xyz2x4x4_z_m256_n256_f32_1_alg».proof.Proof.Gen.Kernel.Skeleton
import proofs.«900736_g7700000000000737_dist_ar_v7x_xyz2x4x4_z_m256_n256_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Facts₀ Cert.Kernel.Facts Cert.Kernel.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The device the kernel addresses at each site is the peer at that offset -/

theorem dev1_eq (c : Dev nD) : (⟨k0_dev1 c, k0_dev1_lt c⟩ : Dev nD) = pk 0 c :=
  Fin.ext ((by decide +kernel : ∀ c : Dev nD, k0_dev1 c = (pk 0 c).val) c)
theorem dev2_eq (c : Dev nD) : (⟨k0_dev2 c, k0_dev2_lt c⟩ : Dev nD) = pk 1 c :=
  Fin.ext ((by decide +kernel : ∀ c : Dev nD, k0_dev2 c = (pk 1 c).val) c)
theorem dev3_eq (c : Dev nD) : (⟨k0_dev3 c, k0_dev3_lt c⟩ : Dev nD) = pk 2 c :=
  Fin.ext ((by decide +kernel : ∀ c : Dev nD, k0_dev3 c = (pk 2 c).val) c)
theorem dev4_eq (c : Dev nD) : (⟨k0_dev4 c, k0_dev4_lt c⟩ : Dev nD) = pk 0 c :=
  Fin.ext ((by decide +kernel : ∀ c : Dev nD, k0_dev4 c = (pk 0 c).val) c)
theorem dev5_eq (c : Dev nD) : (⟨k0_dev5 c, k0_dev5_lt c⟩ : Dev nD) = pk 1 c :=
  Fin.ext ((by decide +kernel : ∀ c : Dev nD, k0_dev5 c = (pk 1 c).val) c)
theorem dev6_eq (c : Dev nD) : (⟨k0_dev6 c, k0_dev6_lt c⟩ : Dev nD) = pk 2 c :=
  Fin.ext ((by decide +kernel : ∀ c : Dev nD, k0_dev6 c = (pk 2 c).val) c)

/-! ## The memrefs and cells -/

abbrev xM : Memref sig .tc .vmem S256x256 .f32 := Memref.whole cc0_stg0_0
abbrev oM : Memref sig .tc .vmem S256x256 .f32 := Memref.whole cc0_stg1_0

/-- Landing slot `s`. -/
abbrev slotM : Fin 3 → Memref sig .tc .vmem S256x256 .f32 := fun | 0 => slot0 | 1 => slot1 | 2 => slot2

/-- The barrier semaphore of collective id 0 (the runtime's, not scoped to the launch). -/
abbrev barS : Sem sig := (SemArray.scalar (sig.barrier 0 rfl) : Sems sig S_).sem
/-- The three send and the three receive DMA semaphores, as the body names them. -/
abbrev snd0 : DmaSems sig S_ := (cc0_scratch1.slice (Rect.unit (s := S3) ![0] S1.size inb_S3_S1_0)).squeeze S_ squeezes_S1_S_
abbrev snd1 : DmaSems sig S_ := (cc0_scratch1.slice (Rect.unit (s := S3) ![1] S1.size inb_S3_S1_1)).squeeze S_ squeezes_S1_S_
abbrev snd2 : DmaSems sig S_ := (cc0_scratch1.slice (Rect.unit (s := S3) ![2] S1.size inb_S3_S1_2)).squeeze S_ squeezes_S1_S_
abbrev rcv0 : DmaSems sig S_ := (cc0_scratch2.slice (Rect.unit (s := S3) ![0] S1.size inb_S3_S1_0)).squeeze S_ squeezes_S1_S_
abbrev rcv1 : DmaSems sig S_ := (cc0_scratch2.slice (Rect.unit (s := S3) ![1] S1.size inb_S3_S1_1)).squeeze S_ squeezes_S1_S_
abbrev rcv2 : DmaSems sig S_ := (cc0_scratch2.slice (Rect.unit (s := S3) ![2] S1.size inb_S3_S1_2)).squeeze S_ squeezes_S1_S_

abbrev sndD : Fin 3 → DmaSem sig := fun | 0 => snd0.sem | 1 => snd1.sem | 2 => snd2.sem
abbrev rcvD : Fin 3 → DmaSem sig := fun | 0 => rcv0.sem | 1 => rcv1.sem | 2 => rcv2.sem

/-- A device's seven semaphores of the protocol: barrier; send 0, 1, 2; receive 0, 1, 2. -/
abbrev csem : Fin 7 → SemLoc sig := fun
  | 0 => .reg barS | 1 => .dma (sndD 0) | 2 => .dma (sndD 1) | 3 => .dma (sndD 2) | 4 => .dma (rcvD 0) | 5 => .dma (rcvD 1) | 6 => .dma (rcvD 2)
abbrev si (j : Fin 3) : Fin 7 := ⟨1 + j.val, by omega⟩
abbrev ri (s : Fin 3) : Fin 7 := ⟨4 + s.val, by omega⟩

abbrev kcell (ck : Dev nD × Fin 7) : GSem nD τ sig := ((ck.1 : Thread nD τ), csem ck.2)
abbrev barCell (c : Dev nD) : GSem nD τ sig := kcell (c, 0)
abbrev sendCell (c : Dev nD) (j : Fin 3) : GSem nD τ sig := kcell (c, si j)
abbrev recvCell (c : Dev nD) (s : Fin 3) : GSem nD τ sig := kcell (c, ri s)

/-- The kernel's OWN (scoped) semaphores, as the launch theorem indexes them: the six DMA semaphores. -/
abbrev osem : Fin 6 → SemLoc sig := fun k => csem ⟨1 + k.val, by omega⟩

theorem csem_injective : Function.Injective (csem : Fin 7 → SemLoc sig) := by decide

/-- Which of the seven a semaphore is, if any. -/
def kindOf (sm : SemLoc sig) : Option (Fin 7) :=
  if sm = csem 0 then some 0 else if sm = csem 1 then some 1 else if sm = csem 2 then some 2 else if sm = csem 3 then some 3
  else if sm = csem 4 then some 4 else if sm = csem 5 then some 5 else if sm = csem 6 then some 6 else none

theorem kindOf_csem : ∀ k : Fin 7, kindOf (csem k) = some k := by decide

/-- The credit of one block's transfer. -/
abbrev N : ℕ := (slot0 : Memref sig .tc .vmem S256x256 .f32).view.dmaCredit
theorem N_pos : 0 < N := View.dmaCredit_pos _ (by decide)

/-! ## Contents and what is held -/

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The three shares of the staging buffer of `x` the three copies read through. -/
abbrev qsh : Fin 3 → PosShare TreeShare := fun | 0 => fullShare.left | 1 => fullShare.right.left | 2 => fullShare.right.right

/-- Slot `s` of device `c`'s scratch buffer, held whole at contents `f` (only `f`'s values on the slot matter). -/
def slotPts (c : Dev nD) (s : Fin 3) (f : Buf (Elt F) ((slotM s).view.loc (c : Thread nD τ))) : sProp 𝕄 :=
  (slotM s).view.loc (c : Thread nD τ) ↦[(slotM s).view.set]{fullShare} f
/-- Share `q` of device `c`'s staging buffer of `x`, at its block. -/
def xPts (c : Dev nD) (q : PosShare TreeShare) : sProp 𝕄 :=
  (xM : Memref sig .tc .vmem S256x256 .f32).view.loc (c : Thread nD τ) ↦[(xM : Memref sig .tc .vmem S256x256 .f32).view.set]{q} xstg m ρ c

omit [FloatOps F] in
instance slotPts_storable (c : Dev nD) (s : Fin 3) (f) : BI.Storable (upEmb : UEmb _ 𝕄) (slotPts (F := F) c s f) := by unfold slotPts; infer_instance
omit [FloatOps F] in
instance xPts_storable (c : Dev nD) (q) : BI.Storable (upEmb : UEmb _ 𝕄) (xPts (F := F) m ρ c q) := by unfold xPts; infer_instance

omit [FloatOps F] in
theorem xPts_eq (c : Dev nD) (q : PosShare TreeShare) : xPts m ρ c q = (((c : Thread nD τ).loc cc0_stg0_0) ↦{q} xstg m ρ c : sProp 𝕄) := by
  unfold xPts; rw [View.set_whole]

/-! ## The schedule -/

/-- Duty `j` of `c`'s barrier cell is paid by `pk j.rev c` (whose offset-`(j+1)` peer is `c`); with it that device hands
    over its landing slot `j` and that it stands at round 0 of that slot's receive cell. -/
def barPay (j : Fin 3) (c : Dev nD) : sProp 𝕄 :=
  iprop((∃ f, slotPts (pk j.rev c) j f) ∗ reached ER (recvCell (pk j.rev c) j) 0)
/-- The landing in slot `s` of `c` hands over the slot holding `pk s c`'s block. -/
def recvPay (s : Fin 3) (c : Dev nD) : sProp 𝕄 :=
  iprop(∃ fd, slotPts c s ((slotM s).view.write (Elt F) fd (xstg m ρ (pk s c)) Finset.univ))
/-- The copy at offset `j + 1` hands back the share of the staging buffer of `x` it read. -/
def sendPay (j : Fin 3) (c : Dev nD) : sProp 𝕄 := xPts m ρ c (qsh j)

/-- What duty `d` of cell `k` of device `c` hands its owner. -/
def payOf (k : Fin 7) (c : Dev nD) (d : Fin 3) : sProp 𝕄 := match k with
  | 0 => barPay d c
  | 1 => sendPay m ρ 0 c | 2 => sendPay m ρ 1 c | 3 => sendPay m ρ 2 c
  | 4 => recvPay m ρ 0 c | 5 => recvPay m ρ 1 c | 6 => recvPay m ρ 2 c

/-- One round, round 0: a barrier cell has three duties of one unit; a send or receive cell the one duty `0` of the
    block's credit. -/
def ringRd : Rounds.Schedule (GSem nD τ sig) (Fin 3) 𝕄 where
  duties g r := if r = 0 ∧ g.1.2 = .tc then (match kindOf g.2 with | some 0 => Finset.univ | some _ => {0} | none => ∅) else ∅
  unitless _ := False
  amount g _ _ := if g.2 = .reg barS then 1 else N
  payload g _ d := match kindOf g.2 with | some k => payOf m ρ k g.1.1 d | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 3) :
    BI.Storable (upEmb : UEmb _ 𝕄) ((ringRd (F := F) m ρ).payload g r d) := by
  show BI.Storable upEmb (match kindOf g.2 with | some k => payOf m ρ k g.1.1 d | none => iprop(emp))
  cases kindOf g.2 with
  | none => dsimp only; infer_instance
  | some k =>
    dsimp only
    fin_cases k <;> simp only [payOf] <;> first | (unfold barPay; infer_instance) | (unfold sendPay; infer_instance) | (unfold recvPay; infer_instance)

section Sched
variable (c : Dev nD)

omit [FloatOps F] in
theorem duties_bar : (ringRd (F := F) m ρ).duties (barCell c) 0 = Finset.univ := by
  dsimp only [ringRd]; rw [if_pos ⟨rfl, rfl⟩, kindOf_csem]; rfl
omit [FloatOps F] in
theorem duties_send (j : Fin 3) : (ringRd (F := F) m ρ).duties (sendCell c j) 0 = {0} := by
  dsimp only [ringRd]; rw [if_pos ⟨rfl, rfl⟩, kindOf_csem]; fin_cases j <;> rfl
omit [FloatOps F] in
theorem duties_recv (s : Fin 3) : (ringRd (F := F) m ρ).duties (recvCell c s) 0 = {0} := by
  dsimp only [ringRd]; rw [if_pos ⟨rfl, rfl⟩, kindOf_csem]; fin_cases s <;> rfl
omit [FloatOps F] in
theorem duties_later (g : GSem nD τ sig) : ∀ r, 1 ≤ r → (ringRd (F := F) m ρ).duties g r = ∅ :=
  fun r hr => by dsimp only [ringRd]; rw [if_neg fun h => by omega]

omit [FloatOps F] in
theorem amount_bar (d : Fin 3) : (ringRd (F := F) m ρ).amount (barCell c) 0 d = 1 := by dsimp only [ringRd]; exact if_pos rfl
omit [FloatOps F] in
theorem amount_send (j d : Fin 3) : (ringRd (F := F) m ρ).amount (sendCell c j) 0 d = N := by
  dsimp only [ringRd]; exact if_neg (fun h => by fin_cases j <;> cases h)
omit [FloatOps F] in
theorem amount_recv (s d : Fin 3) : (ringRd (F := F) m ρ).amount (recvCell c s) 0 d = N := by
  dsimp only [ringRd]; exact if_neg (fun h => by fin_cases s <;> cases h)

omit [FloatOps F] in
theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send (j : Fin 3) : (ringRd (F := F) m ρ).expect (sendCell c j) 0 = N := by
  unfold Schedule.expect Schedule.amountOf; rw [duties_send, Finset.sum_singleton, amount_send]
omit [FloatOps F] in
theorem expect_recv (s : Fin 3) : (ringRd (F := F) m ρ).expect (recvCell c s) 0 = N := by
  unfold Schedule.expect Schedule.amountOf; rw [duties_recv, Finset.sum_singleton, amount_recv]

omit [FloatOps F] in
theorem payload_bar (d : Fin 3) : (ringRd (F := F) m ρ).payload (barCell c) 0 d = barPay d c := by
  dsimp only [ringRd]; rw [kindOf_csem]; rfl
omit [FloatOps F] in
theorem payload_send (j d : Fin 3) : (ringRd (F := F) m ρ).payload (sendCell c j) 0 d = sendPay m ρ j c := by
  dsimp only [ringRd]; rw [kindOf_csem]; fin_cases j <;> rfl
omit [FloatOps F] in
theorem payload_recv (s d : Fin 3) : (ringRd (F := F) m ρ).payload (recvCell c s) 0 d = recvPay m ρ s c := by
  dsimp only [ringRd]; rw [kindOf_csem]; fin_cases s <;> rfl

omit [FloatOps F] in
/-- The whole of the barrier cell's round: the three peers' payloads. -/
theorem rest_bar : bigSep ((ringRd (F := F) m ρ).duties (barCell c) 0 \ ∅) (fun d => (ringRd (F := F) m ρ).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
theorem rest_send (j : Fin 3) : bigSep ((ringRd (F := F) m ρ).duties (sendCell c j) 0 \ ∅) (fun d => (ringRd (F := F) m ρ).payload (sendCell c j) 0 d)
    = sendPay m ρ j c := by
  rw [Finset.sdiff_empty, duties_send, bigSep_singleton, payload_send]
omit [FloatOps F] in
theorem rest_recv (s : Fin 3) : bigSep ((ringRd (F := F) m ρ).duties (recvCell c s) 0 \ ∅) (fun d => (ringRd (F := F) m ρ).payload (recvCell c s) 0 d)
    = recvPay m ρ s c := by
  rw [Finset.sdiff_empty, duties_recv, bigSep_singleton, payload_recv]

end Sched

/-! ## What each core owes at launch; the levels -/

/-- The unit device `c` owes the barrier cell of its peer at offset `j + 1`, and the block's credit it owes that
    peer's receive cell `2 - j`. -/
def Bt (c : Dev nD) (j : Fin 3) : CellTallies nD τ sig Unit := tallyAt (barCell (pk j c)) () 1
def Rt (c : Dev nD) (j : Fin 3) : CellTallies nD τ sig Unit := tallyAt (recvCell (pk j c) j.rev) () N
/-- What is still owed at the barrier wait: the three copies' receive credits; -/
def OR (c : Dev nD) : CellTallies nD τ sig Unit := (Rt c 2 + Rt c 1) + Rt c 0
/-- and at launch, summed so that each payment in program order peels the last summand. -/
def O₀ (c : Dev nD) : CellTallies nD τ sig Unit := ((OR c + Bt c 2) + Bt c 1) + Bt c 0

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = csem 4 ∨ g.2 = csem 5 ∨ g.2 = csem 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (s : Fin 3) : lv (recvCell c s) () = 2 := by
  fin_cases s <;> (dsimp only [lv]; rw [if_neg (by decide), if_pos (by decide)])
theorem lv_other (c : Dev nD) (sm : SemLoc sig) (h : ∀ k : Fin 7, sm ≠ csem k) : lv ((c : Thread nD τ), sm) () = 0 := by
  dsimp only [lv]; rw [if_neg (h 0), if_neg (by rintro (h' | h' | h') <;> [exact h 4 h'; exact h 5 h'; exact h 6 h'])]
theorem lv_send (c : Dev nD) (j : Fin 3) : lv (sendCell c j) () = 0 := by
  fin_cases j <;> (dsimp only [lv]; rw [if_neg (by decide), if_neg (by decide)])

theorem OR_pos {c : Dev nD} {g : GSem nD τ sig} {u : Unit} (h : 0 < OR c g u) : ∃ j : Fin 3, g = recvCell (pk j c) j.rev := by
  unfold OR at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ j : Fin 3, g = recvCell (pk j c) j.rev) ∨ ∃ j : Fin 3, g = barCell (pk j c) := by
  unfold O₀ at h
  rcases Pipeline.add_pos_cases h with h | h
  · rcases Pipeline.add_pos_cases h with h | h
    · rcases Pipeline.add_pos_cases h with h | h
      · exact .inl (OR_pos h)
      · exact .inr ⟨2, (Pipeline.tallyAt_pos h).1⟩
    · exact .inr ⟨1, (Pipeline.tallyAt_pos h).1⟩
  · exact .inr ⟨0, (Pipeline.tallyAt_pos h).1⟩

omit [FloatOps F] in
/-- A cell at level 0 may be waited on whatever of `O₀` is still owed: everything owed sits at level 1 or 2. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g i hg => ?_
    rcases O₀_pos hg with ⟨j, rfl⟩ | ⟨j, rfl⟩
    · exact ⟨by rw [L_tc]; exact Finset.mem_singleton_self _, by rw [hsm, lv_recv]; decide⟩
    · exact ⟨by rw [L_tc]; exact Finset.mem_singleton_self _, by rw [hsm, lv_bar]; decide⟩
  · rw [MayWait_zero]; iintro -; iempintro

omit [FloatOps F] in
/-- At its barrier wait a device owes receive credits only: receive cells sit above barrier cells. -/
theorem mayWait_bar (c : Dev nD) : (levAts L lv : sProp 𝕄) ⊢ MayWait (c : Thread nD τ) (.reg barS) () (OR c) :=
  Pipeline.mayWait_of_levAts (by rw [L_tc]; exact Finset.mem_singleton_self _) fun g i hg => by
    obtain ⟨j, rfl⟩ := OR_pos hg
    exact ⟨by rw [L_tc]; exact Finset.mem_singleton_self _, by rw [show lv ((c : Thread nD τ), SemLoc.reg barS) () = 1 from if_pos rfl, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its block of `x` plus its three peers', in the order the body adds them. -/
def outAt (c : Dev nD) : (cc0_stg1_0 : Ref sig .tc).ty.Contents (Elt F) :=
  sum4 (xstg m ρ c) (xstg m ρ (pk 0 c)) (xstg m ρ (pk 1 c)) (xstg m ρ (pk 2 c))

/-- Every cell's invariant, under the names `K` the launch allocated them at, and round 0 of every cell reached:
    persistent, so each device's body takes from it the ones it opens. -/
def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at' (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
omit [FloatOps F] in
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
omit [FloatOps F] in
theorem inv_at (K : Dev nD × Fin 7 → ℕ) (ck : Dev nD × Fin 7) : records m ρ K ⊢ cellInv ER (ringRd m ρ) (K ck) (kcell ck) := by
  unfold records; iintro ⟨H, -⟩; iapply (inv_at' m ρ K ck); iexact H
omit [FloatOps F] in
theorem reached_at (K : Dev nD × Fin 7 → ℕ) (ck : Dev nD × Fin 7) : records m ρ K ⊢ reached ER (kcell ck) 0 := by
  unfold records; iintro ⟨-, H⟩; iapply (reached_at' (F := F) ck); iexact H

/-- Device `c`'s positions: round 0 of each of its seven cells, nothing taken. -/
def positions (c : Dev nD) : sProp 𝕄 := bigSep Finset.univ fun k : Fin 7 => atPos ER (kcell (c, k)) 0 ∅ 0
/-- The tokens of the nine duties device `c` pays: per offset, the peer's barrier duty, the peer's receive duty, its own
    send duty. -/
def payToks (c : Dev nD) : sProp 𝕄 :=
  bigSep Finset.univ fun j : Fin 3 =>
    iprop(dutyTok ER (barCell (pk j c)) 0 j ∗ dutyTok ER (recvCell (pk j c) j.rev) 0 0 ∗ dutyTok ER (sendCell c j) 0 0)

/-- The ring's ghost state device `c` starts from. -/
def ghost (K : Dev nD × Fin 7 → ℕ) (c : Dev nD) : sProp 𝕄 := iprop(records m ρ K ∗ positions c ∗ payToks c)

/-- What device `c`'s body starts from: that at some names, the credit of its barrier's three units and of its three
    receive cells, and the level facts. -/
def start (c : Dev nD) : sProp 𝕄 :=
  iprop((∃ K, ghost m ρ K c) ∗ cred (tallyAt (barCell c) () 3)
    ∗ (bigSep Finset.univ fun s : Fin 3 => cred (tallyAt (recvCell c s) () N)) ∗ levAts L lv)

def Φ₀ (c : Dev nD) : sProp 𝕄 := iprop(start m ρ c ∗ ∃ f : Buf (Elt F) ((c : Thread nD τ).loc cc0_scratch0), ((c : Thread nD τ).loc cc0_scratch0) ↦{fullShare} f)
/-- After the point: the scratch buffer whole again, the six OWN cells at zero, closed (the barrier cell is the
    runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ bigSep Finset.univ fun k : Fin 6 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the one grid point starts from and ends with, as the pipeline states it. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-! ## What the launch deals each device, and what its global step makes of it -/

/-- The duty tokens of device `c`'s OWN cells, as minted: its barrier's three, one per send cell, one per receive cell. -/
def toks (c : Dev nD) : sProp 𝕄 :=
  bigSep Finset.univ fun j : Fin 3 => iprop(dutyTok ER (barCell c) 0 j ∗ dutyTok ER (sendCell c j) 0 0 ∗ dutyTok ER (recvCell c j) 0 0)

/-- What the launch element deals device `c`: each of its seven cells' round state, position and reached-mark, and `toks c`. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it: the ring's ghost state at some names. -/
def G' (c : Dev nD) : sProp 𝕄 := iprop(∃ K, ghost m ρ K c)

end Cert.Kernel.Hand

end
-- ==== Proof.WSlots.lean ====
/-
  The three landing slots of the scratch buffer f32[3, 256, 256]: which elements each slot holds, that the slots
  are pairwise disjoint, that a load of the plane (s, 0, 0) + [1, 256, 256] through the whole buffer touches
  exactly slot s, and that what was written into slot s through its own memref is what that load reads back
  after the leading axis of size one is dropped.
-/
import proofs.«900736_g7700000000000737_dist_ar_v7x_xyz2x4x4_z_m256_n256_f32_1_alg».proof.Proof.WSlotDefs
import Idealize.ShloMosaic.Signature.View
import Idealize.ShloMosaic.Signature.Memref
import Idealize.ShloMosaic.Rules.PointsTo
import Idealize.ShloMosaic.PureOps.ShapeOps

noncomputable section

namespace Cert.Kernel.Slots

open Cert.Kernel Cert.Kernel.Facts₀ Cert.Kernel.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The elements of a slot

A slot is the scratch buffer's plane re-indexed without its leading axis: re-indexing keeps the set of elements,
and a rectangle of a whole buffer holds the rectangle's own elements. -/

theorem slot0_set : slot0.view.set = rect0.set :=
  (View.set_reshape (rM.view.slice rect0) _).trans (View.set_slice_whole cc0_scratch0 rect0)
theorem slot1_set : slot1.view.set = rect1.set :=
  (View.set_reshape (rM.view.slice rect1) _).trans (View.set_slice_whole cc0_scratch0 rect1)
theorem slot2_set : slot2.view.set = rect2.set :=
  (View.set_reshape (rM.view.slice rect2) _).trans (View.set_slice_whole cc0_scratch0 rect2)

/-! ## A load of a plane through the whole buffer stays inside the plane's slot -/

theorem load_sub0 : rM.view.setOn rect0.toLoadRect.set ⊆ slot0.view.set := by
  rw [slot0_set]; intro i hi
  obtain ⟨j, hj, rfl⟩ := Finset.mem_map.mp hi
  exact hj
theorem load_sub1 : rM.view.setOn rect1.toLoadRect.set ⊆ slot1.view.set := by
  rw [slot1_set]; intro i hi
  obtain ⟨j, hj, rfl⟩ := Finset.mem_map.mp hi
  exact hj
theorem load_sub2 : rM.view.setOn rect2.toLoadRect.set ⊆ slot2.view.set := by
  rw [slot2_set]; intro i hi
  obtain ⟨j, hj, rfl⟩ := Finset.mem_map.mp hi
  exact hj

/-! ## Different slots share no element: their first coordinates differ -/

theorem slot_disj01 : Disjoint slot0.view.set slot1.view.set := by
  rw [slot0_set, slot1_set]
  exact Rect.unit_disjoint (0 : Fin 3) (Or.inl (by decide))
theorem slot_disj02 : Disjoint slot0.view.set slot2.view.set := by
  rw [slot0_set, slot2_set]
  exact Rect.unit_disjoint (0 : Fin 3) (Or.inl (by decide))
theorem slot_disj12 : Disjoint slot1.view.set slot2.view.set := by
  rw [slot1_set, slot2_set]
  exact Rect.unit_disjoint (0 : Fin 3) (Or.inl (by decide))

/-! ## What lands in a slot is what the plane's load reads back

The slot's index `j` sits at the plane's index with the same row-major position; the load of the plane followed by
the shape cast reads, at `j`, the plane at that same index: the element the slot's own index `j` names. -/

omit [FloatOps F] in
theorem read_slot_of_agree {Val : EltTy → Type} (m : Memref sig .tc .vmem S3x256x256 .f32) (r : Rect S3x256x256)
    (hr : ∀ a, r.stride a = 1) (t : Shape) (hq : r.shape.Squeezes t) (hc : r.shape.ShapeCasts t)
    (g : m.view.ty.Contents Val) (X : t.Idx → Val .f32)
    (hg : ∀ j : t.Idx, g (((m.slice r hr).squeeze t hq).view.emb j)
        = _root_.cast (congrArg Val ((m.slice r hr).squeeze t hq).view.elt_eq.symm) (X j)) :
    shapeCast t (m.view.readAt Val r.toLoadRect g) hc = X := by
  funext j
  show (m.view.slice r).read Val g (Shape.reshapeEquiv hc j) = X j
  rw [View.read_apply]
  have e : (m.view.slice r).emb (Shape.reshapeEquiv hc j) = ((m.slice r hr).squeeze t hq).view.emb j := rfl
  rw [e, hg j, cast_cast, cast_eq]

/-- Writing one payload everywhere through a view gives, on the view's own elements, contents that do not depend on
    what the buffer held before. -/
theorem write_agree_on_set {σ : RefSig} {Val : EltTy → Type} {κ : Kind} {sp : Space} {s : Shape} {e : EltTy}
    (v : View σ κ sp s e) (fd fd' : v.ty.Contents Val) (w : s.Idx → Val e) :
    ∀ i ∈ v.set, v.write Val fd w Finset.univ i = v.write Val fd' w Finset.univ i := by
  intro i hi
  obtain ⟨y, -, rfl⟩ := Finset.mem_map.mp hi
  rw [View.write_emb_of_mem _ _ (Finset.mem_univ y), View.write_emb_of_mem _ _ (Finset.mem_univ y)]

omit [FloatOps F] in
/-- Contents that agree, on slot 0, with `X` written through the slot read back as `X` through the plane's load. -/
theorem read_slot0_of_agree (Val : EltTy → Type) (g fd : rM.view.ty.Contents Val) (X : S256x256.Idx → Val .f32)
    (hg : ∀ i ∈ slot0.view.set, g i = slot0.view.write Val fd X Finset.univ i) :
    shapeCast S256x256 (rM.view.readAt Val rect0.toLoadRect g) shapeCasts_S1x256x256_S256x256 = X :=
  read_slot_of_agree rM rect0 (fun _ => rfl) S256x256 squeezes_S1x256x256_S256x256 shapeCasts_S1x256x256_S256x256 g X
    fun j => (hg _ (slot0.view.emb_mem_set j)).trans (View.write_emb_of_mem _ _ (Finset.mem_univ j))

omit [FloatOps F] in
/-- `X` written into slot 0 through the slot's memref reads back as `X` through the plane's load and the shape cast. -/
theorem read_slot0 (Val : EltTy → Type) (fd : rM.view.ty.Contents Val) (X : S256x256.Idx → Val .f32) :
    shapeCast S256x256 (rM.view.readAt Val rect0.toLoadRect (slot0.view.write Val fd X Finset.univ))
      shapeCasts_S1x256x256_S256x256 = X :=
  read_slot0_of_agree Val _ fd X fun _ _ => rfl

omit [FloatOps F] in
/-- Contents that agree, on slot 1, with `X` written through the slot read back as `X` through the plane's load. -/
theorem read_slot1_of_agree (Val : EltTy → Type) (g fd : rM.view.ty.Contents Val) (X : S256x256.Idx → Val .f32)
    (hg : ∀ i ∈ slot1.view.set, g i = slot1.view.write Val fd X Finset.univ i) :
    shapeCast S256x256 (rM.view.readAt Val rect1.toLoadRect g) shapeCasts_S1x256x256_S256x256 = X :=
  read_slot_of_agree rM rect1 (fun _ => rfl) S256x256 squeezes_S1x256x256_S256x256 shapeCasts_S1x256x256_S256x256 g X
    fun j => (hg _ (slot1.view.emb_mem_set j)).trans (View.write_emb_of_mem _ _ (Finset.mem_univ j))

omit [FloatOps F] in
/-- `X` written into slot 1 through the slot's memref reads back as `X` through the plane's load and the shape cast. -/
theorem read_slot1 (Val : EltTy → Type) (fd : rM.view.ty.Contents Val) (X : S256x256.Idx → Val .f32) :
    shapeCast S256x256 (rM.view.readAt Val rect1.toLoadRect (slot1.view.write Val fd X Finset.univ))
      shapeCasts_S1x256x256_S256x256 = X :=
  read_slot1_of_agree Val _ fd X fun _ _ => rfl

omit [FloatOps F] in
/-- Contents that agree, on slot 2, with `X` written through the slot read back as `X` through the plane's load. -/
theorem read_slot2_of_agree (Val : EltTy → Type) (g fd : rM.view.ty.Contents Val) (X : S256x256.Idx → Val .f32)
    (hg : ∀ i ∈ slot2.view.set, g i = slot2.view.write Val fd X Finset.univ i) :
    shapeCast S256x256 (rM.view.readAt Val rect2.toLoadRect g) shapeCasts_S1x256x256_S256x256 = X :=
  read_slot_of_agree rM rect2 (fun _ => rfl) S256x256 squeezes_S1x256x256_S256x256 shapeCasts_S1x256x256_S256x256 g X
    fun j => (hg _ (slot2.view.emb_mem_set j)).trans (View.write_emb_of_mem _ _ (Finset.mem_univ j))

omit [FloatOps F] in
/-- `X` written into slot 2 through the slot's memref reads back as `X` through the plane's load and the shape cast. -/
theorem read_slot2 (Val : EltTy → Type) (fd : rM.view.ty.Contents Val) (X : S256x256.Idx → Val .f32) :
    shapeCast S256x256 (rM.view.readAt Val rect2.toLoadRect (slot2.view.write Val fd X Finset.univ))
      shapeCasts_S1x256x256_S256x256 = X :=
  read_slot2_of_agree Val _ fd X fun _ _ => rfl

/-! ## The whole buffer as its three slots and the rest

Each slot is carved out of what the earlier ones left (it is disjoint from them), and put back in the reverse
order; nothing is claimed about the remainder, which is carried along. -/

/-- What the three slots leave of the scratch buffer. -/
def restSet : Finset rM.view.ty.Idx := ((Finset.univ \ slot0.view.set) \ slot1.view.set) \ slot2.view.set

theorem slot1_sub : slot1.view.set ⊆ Finset.univ \ slot0.view.set :=
  Finset.subset_sdiff.mpr ⟨Finset.subset_univ _, slot_disj01.symm⟩
theorem slot2_sub : slot2.view.set ⊆ (Finset.univ \ slot0.view.set) \ slot1.view.set :=
  Finset.subset_sdiff.mpr ⟨Finset.subset_sdiff.mpr ⟨Finset.subset_univ _, slot_disj02.symm⟩, slot_disj12.symm⟩

section Split

variable {Ix : Type} [DecidableEq Ix] {Val : EltTy → Type} {Name : Type} [DecidableEq Name] {U : Type} [URA U] {Lvl : Type}

omit [FloatOps F] in
theorem scratch_split (d : Dev nD) (f : Buf Val ((d : Thread nD τ).loc cc0_scratch0)) :
    ((((d : Thread nD τ).loc cc0_scratch0) ↦{fullShare} f) : sProp (MT nD τ sig Ix Val Name U Lvl))
      ⊢ iprop((((d : Thread nD τ).loc cc0_scratch0) ↦[slot0.view.set]{fullShare} f)
          ∗ (((d : Thread nD τ).loc cc0_scratch0) ↦[slot1.view.set]{fullShare} f)
          ∗ (((d : Thread nD τ).loc cc0_scratch0) ↦[slot2.view.set]{fullShare} f)
          ∗ (((d : Thread nD τ).loc cc0_scratch0) ↦[restSet]{fullShare} f)) :=
  (pointsTo_split_subset (Finset.subset_univ slot0.view.set)).1.trans
    (sep_mono_right ((pointsTo_split_subset slot1_sub).1.trans (sep_mono_right (pointsTo_split_subset slot2_sub).1)))

omit [FloatOps F] in
theorem scratch_join (d : Dev nD) (f0 f1 f2 fr : Buf Val ((d : Thread nD τ).loc cc0_scratch0)) :
    (iprop((((d : Thread nD τ).loc cc0_scratch0) ↦[slot0.view.set]{fullShare} f0)
          ∗ (((d : Thread nD τ).loc cc0_scratch0) ↦[slot1.view.set]{fullShare} f1)
          ∗ (((d : Thread nD τ).loc cc0_scratch0) ↦[slot2.view.set]{fullShare} f2)
          ∗ (((d : Thread nD τ).loc cc0_scratch0) ↦[restSet]{fullShare} fr)) : sProp (MT nD τ sig Ix Val Name U Lvl))
      ⊢ iprop(∃ f : Buf Val ((d : Thread nD τ).loc cc0_scratch0), ((d : Thread nD τ).loc cc0_scratch0) ↦{fullShare} f) :=
  ((sep_mono_right ((sep_mono_right (pointsTo_join_subset slot2_sub)).trans (pointsTo_join_subset slot1_sub))).trans
    (pointsTo_join_subset (Finset.subset_univ slot0.view.set))).trans (exists_intro _)

end Split

/-- info: 'Cert.Kernel.Slots.scratch_split' depends on axioms: [propext, Classical.choice, Quot.sound] -/
#guard_msgs in #print axioms Cert.Kernel.Slots.scratch_split
/-- info: 'Cert.Kernel.Slots.scratch_join' depends on axioms: [propext, Classical.choice, Quot.sound] -/
#guard_msgs in #print axioms Cert.Kernel.Slots.scratch_join
/-- info: 'Cert.Kernel.Slots.read_slot0' depends on axioms: [propext, Classical.choice, Quot.sound] -/
#guard_msgs in #print axioms Cert.Kernel.Slots.read_slot0

end Cert.Kernel.Slots

end
-- ==== Proof.WBody.lean ====
/-
  One device's body, stepped from the protocol's invariant: the three signals to its peers' barrier cells (each
  handing over one of its landing slots), the wait for the three units of its own barrier cell (which brings
  the peers' slots), the three copies of its block into those slots, the six waits (each send returns a share of
  the staging buffer of `x`, each receive a slot holding a peer's block), and the sum of the four blocks.
-/
import proofs.«900736_g7700000000000737_dist_ar_v7x_xyz2x4x4_z_m256_n256_f32_1_alg».proof.Proof.WProto
import proofs.«900736_g7700000000000737_dist_ar_v7x_xyz2x4x4_z_m256_n256_f32_1_alg».proof.Proof.WSlots
import Idealize.ShloMosaic.Lib.Pipeline.Value

noncomputable section

namespace Cert.Kernel.Hand

open Cert.Kernel Cert.Kernel.Facts₀ Cert.Kernel.Facts Cert.Kernel.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

theorem rev0 : (0 : Fin 3).rev = 2 := rfl
theorem rev1 : (1 : Fin 3).rev = 1 := rfl
theorem rev2 : (2 : Fin 3).rev = 0 := rfl

omit [FloatOps F] in
/-- The barrier duty a device pays at its peer of offset `j + 1` hands over the payer's own slot `j`. -/
theorem barPay_peer (j : Fin 3) (c : Dev nD) :
    barPay (F := F) j (pk j c) = iprop((∃ f, slotPts c j f) ∗ reached ER (recvCell c j) 0) := by
  unfold barPay; rw [pk_rev_pk]

section Body

variable (K : Dev nD × Fin 7 → ℕ)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w

def bodyPre (c : Dev nD) : sProp 𝕄 :=
  iprop((ghost m ρ K c ∗ cred (tallyAt (barCell c) () 3) ∗ (bigSep Finset.univ fun s : Fin 3 => cred (tallyAt (recvCell c s) () N)) ∗ levAts L lv
      ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
/-- What lands in slot 2 of the peer at offset 1 is this device's block: the receive duty's payload there. -/
theorem recv_pay0 (c : Dev nD) (fn : Buf (Elt F) (slot2.view.loc (pk 0 c : Thread nD τ))) :
    (slot2.view.loc (pk 0 c : Thread nD τ) ↦[slot2.view.set]{fullShare}
        (slot2.view.write (Elt F) fn ((xM : Memref sig .tc .vmem S256x256 .f32).view.read (Elt F) (xstg m ρ c)) Finset.univ) : sProp 𝕄)
      ⊢ (ringRd m ρ).payload (recvCell (pk 0 c) 2) 0 0 := by
  rw [payload_recv]
  unfold recvPay slotPts
  rw [show pk 2 (pk 0 c) = c from pk_rev_pk 0 c]
  iintro H
  iexists fn
  simp only [Memref.view_whole, View.read_whole]
  iexact H

/-- The copy at offset 1: send cell 0 here, receive cell 2 of `pk 0 c`, landing in its slot 2. -/
theorem wp_send_ring0 (c n : Dev nD) (hn : n = pk 0 c)
    {hsc : (slot2 : Memref sig (Dev.tc n : Thread nD τ).2.kind .vmem S256x256 .f32).view.ref.isScScratch = false}
    {hsrc : (xM : Memref sig .tc .vmem S256x256 .f32).view.WordExact} {hdst : (slot2 : Memref sig .tc .vmem S256x256 .f32).view.WordExact}
    {hsem : DmaTarget.Typed .vmem (.dma rcv2.sem) (.remote (Dev.tc n : Thread nD τ) (slot2 : Memref sig .tc .vmem S256x256 .f32) (.dma snd0.sem) hsc)}
    {α : Type} {Q : α → sProp 𝕄} {k : PUnit → Prog (TpuEff nD τ sig (Elt F) Λ₀ .tc) α}
    (fn : Buf (Elt F) (slot2.view.loc (pk 0 c : Thread nD τ))) (O : CellTallies nD τ sig Unit) (W : Waits sig Unit) :
    iprop(cellInv ER (ringRd m ρ) (K (c, 1)) (sendCell c 0) ∗ cellInv ER (ringRd m ρ) (K (pk 0 c, 6)) (recvCell (pk 0 c) 2)
        ∗ xPts m ρ c (qsh 0) ∗ slotPts (pk 0 c) 2 fn
        ∗ owes (c : Thread nD τ) (O + Rt c 0) W
        ∗ dutyTok ER (sendCell c 0) 0 0 ∗ reached ER (sendCell c 0) 0
        ∗ dutyTok ER (recvCell (pk 0 c) 2) 0 0 ∗ reached ER (recvCell (pk 0 c) 2) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) slot2 (.dma snd0.sem) hsc) (.dma rcv2.sem) hsrc hdst hsem) k) Q) := by
  subst hn
  unfold xPts slotPts
  exact Rounds.wp_send_pointsTo 𝒱₀ ER (ringRd m ρ) (c : Thread nD τ) none (κ₁ := K (c, 1)) (κ₂ := K (pk 0 c, 6))
    (r₁ := 0) (r₂ := 0) (d₁ := 0) (d₂ := 0) (fd := fn)
    (show (0 : Fin 3) ∈ (ringRd m ρ).duties (sendCell c 0) 0 from by rw [duties_send]; exact Finset.mem_singleton_self _)
    (show (0 : Fin 3) ∈ (ringRd m ρ).duties (recvCell (pk 0 c) 2) 0 from by rw [duties_recv]; exact Finset.mem_singleton_self _)
    () () N rfl (amount_send m ρ c 0 0) (amount_recv m ρ (pk 0 c) 2 0) O rfl (W := W)
    (Entails.of_eq (payload_send m ρ c 0 0).symm)
    (recv_pay0 m ρ c fn)

omit [FloatOps F] in
/-- What lands in slot 1 of the peer at offset 2 is this device's block: the receive duty's payload there. -/
theorem recv_pay1 (c : Dev nD) (fn : Buf (Elt F) (slot1.view.loc (pk 1 c : Thread nD τ))) :
    (slot1.view.loc (pk 1 c : Thread nD τ) ↦[slot1.view.set]{fullShare}
        (slot1.view.write (Elt F) fn ((xM : Memref sig .tc .vmem S256x256 .f32).view.read (Elt F) (xstg m ρ c)) Finset.univ) : sProp 𝕄)
      ⊢ (ringRd m ρ).payload (recvCell (pk 1 c) 1) 0 0 := by
  rw [payload_recv]
  unfold recvPay slotPts
  rw [show pk 1 (pk 1 c) = c from pk_rev_pk 1 c]
  iintro H
  iexists fn
  simp only [Memref.view_whole, View.read_whole]
  iexact H

/-- The copy at offset 2: send cell 1 here, receive cell 1 of `pk 1 c`, landing in its slot 1. -/
theorem wp_send_ring1 (c n : Dev nD) (hn : n = pk 1 c)
    {hsc : (slot1 : Memref sig (Dev.tc n : Thread nD τ).2.kind .vmem S256x256 .f32).view.ref.isScScratch = false}
    {hsrc : (xM : Memref sig .tc .vmem S256x256 .f32).view.WordExact} {hdst : (slot1 : Memref sig .tc .vmem S256x256 .f32).view.WordExact}
    {hsem : DmaTarget.Typed .vmem (.dma rcv1.sem) (.remote (Dev.tc n : Thread nD τ) (slot1 : Memref sig .tc .vmem S256x256 .f32) (.dma snd1.sem) hsc)}
    {α : Type} {Q : α → sProp 𝕄} {k : PUnit → Prog (TpuEff nD τ sig (Elt F) Λ₀ .tc) α}
    (fn : Buf (Elt F) (slot1.view.loc (pk 1 c : Thread nD τ))) (O : CellTallies nD τ sig Unit) (W : Waits sig Unit) :
    iprop(cellInv ER (ringRd m ρ) (K (c, 2)) (sendCell c 1) ∗ cellInv ER (ringRd m ρ) (K (pk 1 c, 5)) (recvCell (pk 1 c) 1)
        ∗ xPts m ρ c (qsh 1) ∗ slotPts (pk 1 c) 1 fn
        ∗ owes (c : Thread nD τ) (O + Rt c 1) W
        ∗ dutyTok ER (sendCell c 1) 0 0 ∗ reached ER (sendCell c 1) 0
        ∗ dutyTok ER (recvCell (pk 1 c) 1) 0 0 ∗ reached ER (recvCell (pk 1 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) slot1 (.dma snd1.sem) hsc) (.dma rcv1.sem) hsrc hdst hsem) k) Q) := by
  subst hn
  unfold xPts slotPts
  exact Rounds.wp_send_pointsTo 𝒱₀ ER (ringRd m ρ) (c : Thread nD τ) none (κ₁ := K (c, 2)) (κ₂ := K (pk 1 c, 5))
    (r₁ := 0) (r₂ := 0) (d₁ := 0) (d₂ := 0) (fd := fn)
    (show (0 : Fin 3) ∈ (ringRd m ρ).duties (sendCell c 1) 0 from by rw [duties_send]; exact Finset.mem_singleton_self _)
    (show (0 : Fin 3) ∈ (ringRd m ρ).duties (recvCell (pk 1 c) 1) 0 from by rw [duties_recv]; exact Finset.mem_singleton_self _)
    () () N rfl (amount_send m ρ c 1 0) (amount_recv m ρ (pk 1 c) 1 0) O rfl (W := W)
    (Entails.of_eq (payload_send m ρ c 1 0).symm)
    (recv_pay1 m ρ c fn)

omit [FloatOps F] in
/-- What lands in slot 0 of the peer at offset 3 is this device's block: the receive duty's payload there. -/
theorem recv_pay2 (c : Dev nD) (fn : Buf (Elt F) (slot0.view.loc (pk 2 c : Thread nD τ))) :
    (slot0.view.loc (pk 2 c : Thread nD τ) ↦[slot0.view.set]{fullShare}
        (slot0.view.write (Elt F) fn ((xM : Memref sig .tc .vmem S256x256 .f32).view.read (Elt F) (xstg m ρ c)) Finset.univ) : sProp 𝕄)
      ⊢ (ringRd m ρ).payload (recvCell (pk 2 c) 0) 0 0 := by
  rw [payload_recv]
  unfold recvPay slotPts
  rw [show pk 0 (pk 2 c) = c from pk_rev_pk 2 c]
  iintro H
  iexists fn
  simp only [Memref.view_whole, View.read_whole]
  iexact H

/-- The copy at offset 3: send cell 2 here, receive cell 0 of `pk 2 c`, landing in its slot 0. -/
theorem wp_send_ring2 (c n : Dev nD) (hn : n = pk 2 c)
    {hsc : (slot0 : Memref sig (Dev.tc n : Thread nD τ).2.kind .vmem S256x256 .f32).view.ref.isScScratch = false}
    {hsrc : (xM : Memref sig .tc .vmem S256x256 .f32).view.WordExact} {hdst : (slot0 : Memref sig .tc .vmem S256x256 .f32).view.WordExact}
    {hsem : DmaTarget.Typed .vmem (.dma rcv0.sem) (.remote (Dev.tc n : Thread nD τ) (slot0 : Memref sig .tc .vmem S256x256 .f32) (.dma snd2.sem) hsc)}
    {α : Type} {Q : α → sProp 𝕄} {k : PUnit → Prog (TpuEff nD τ sig (Elt F) Λ₀ .tc) α}
    (fn : Buf (Elt F) (slot0.view.loc (pk 2 c : Thread nD τ))) (O : CellTallies nD τ sig Unit) (W : Waits sig Unit) :
    iprop(cellInv ER (ringRd m ρ) (K (c, 3)) (sendCell c 2) ∗ cellInv ER (ringRd m ρ) (K (pk 2 c, 4)) (recvCell (pk 2 c) 0)
        ∗ xPts m ρ c (qsh 2) ∗ slotPts (pk 2 c) 0 fn
        ∗ owes (c : Thread nD τ) (O + Rt c 2) W
        ∗ dutyTok ER (sendCell c 2) 0 0 ∗ reached ER (sendCell c 2) 0
        ∗ dutyTok ER (recvCell (pk 2 c) 0) 0 0 ∗ reached ER (recvCell (pk 2 c) 0) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) slot0 (.dma snd2.sem) hsc) (.dma rcv0.sem) hsrc hdst hsem) k) Q) := by
  subst hn
  unfold xPts slotPts
  exact Rounds.wp_send_pointsTo 𝒱₀ ER (ringRd m ρ) (c : Thread nD τ) none (κ₁ := K (c, 3)) (κ₂ := K (pk 2 c, 4))
    (r₁ := 0) (r₂ := 0) (d₁ := 0) (d₂ := 0) (fd := fn)
    (show (0 : Fin 3) ∈ (ringRd m ρ).duties (sendCell c 2) 0 from by rw [duties_send]; exact Finset.mem_singleton_self _)
    (show (0 : Fin 3) ∈ (ringRd m ρ).duties (recvCell (pk 2 c) 0) 0 from by rw [duties_recv]; exact Finset.mem_singleton_self _)
    () () N rfl (amount_send m ρ c 2 0) (amount_recv m ρ (pk 2 c) 0 0) O rfl (W := W)
    (Entails.of_eq (payload_send m ρ c 2 0).symm)
    (recv_pay2 m ρ c fn)

omit [FloatOps F] in
/-- Read back through the whole scratch buffer and the shape cast, each slot gives the block that landed in it: the
    stored value is the sum of the device's block and its three peers'. -/
theorem pay_eq [FloatOps F] (c : Dev nD) (fd0 fd1 fd2 : (rM : Memref sig .tc .vmem S3x256x256 .f32).view.ty.Contents (Elt F)) :
    Gen.k0_pay1 (xstg m ρ c)
      (rM.view.readAt (Elt F) rect0.toLoadRect (slot0.view.write (Elt F) fd0 (xstg m ρ (pk 0 c)) Finset.univ))
      (rM.view.readAt (Elt F) rect1.toLoadRect (slot1.view.write (Elt F) fd1 (xstg m ρ (pk 1 c)) Finset.univ))
      (rM.view.readAt (Elt F) rect2.toLoadRect (slot2.view.write (Elt F) fd2 (xstg m ρ (pk 2 c)) Finset.univ))
    = outAt m ρ c := by
  unfold Gen.k0_pay1 outAt sum4
  rw [read_slot0 (Elt F), read_slot1 (Elt F), read_slot2 (Elt F), shapeCast_self]

set_option maxHeartbeats 1600000 in
/-- The body, stepped from `bodyPre` one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [Gen.cc0_body_eq_skeleton]; unfold Gen.cc0_body_skel
  simp only [Gen.k0_part1_eq_skeleton, Gen.k0_part2_eq_skeleton, Gen.k0_part3_eq_skeleton, Gen.k0_part4_eq_skeleton, Gen.k0_part5_eq_skeleton]
  unfold Gen.k0_part1_skel Gen.k0_part2_skel Gen.k0_part3_skel Gen.k0_part4_skel Gen.k0_part5_skel
  simp only [semSignalWord, semWaitWord, Prog.lift, Prog.bind_op, Prog.bind_ret, Prog.pure_eq_ret, wp_deviceId]
  unfold bodyPre ghost positions payToks
  rw [bigSep_fin7, bigSep_fin3, bigSep_fin3]
  iintro ⟨⟨⟨⟨#Hrec, ⟨HaB, HaS0, HaS1, HaS2, HaR0, HaR1, HaR2⟩, ⟨HtB0, HtR0, HtS0⟩, ⟨HtB1, HtR1, HtS1⟩, ⟨HtB2, HtR2, HtS2⟩⟩, HcB, ⟨HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c, dev4_eq c, dev5_eq c, dev6_eq c]
  -- the scratch buffer cut into its three slots (and what is left of it)
  ihave Hs := (scratch_split (Ix := Unit) (Val := Elt F) (Name := ℕ) (U := UU) (Lvl := ℕ) c f0) $$ Hscr
  icases Hs with ⟨Hs0, Hs1, Hs2, Hrest⟩
  -- the three signals: to the peer at offset j + 1, paying duty j of its barrier cell with this device's slot j
  unfold O₀
  iapply (Rounds.wp_signal 𝒱₀ ER (ringRd m ρ) (c : Thread nD τ) none (dst := (pk 0 c : Thread nD τ)) (κ := K (pk 0 c, 0))
      (d := (0 : Fin 3)) (by rw [duties_bar]; exact Finset.mem_univ _) ((amount_bar m ρ (pk 0 c) 0).trans (by decide)) () ((OR c + Bt c 2) + Bt c 1) rfl)
    $$ [HO HtB0 Hs0]
  · isplitr; · iapply (inv_at m ρ K (pk 0 c, 0)); iexact Hrec
    isplitl [HO]; · iexact HO
    isplitl [HtB0]; · iexact HtB0
    isplitl [Hs0]
    · rw [payload_bar, barPay_peer]
      isplitl [Hs0]; · iexists f0; unfold slotPts; iexact Hs0
      iapply (reached_at m ρ K (c, ri 0)); iexact Hrec
    · iapply (reached_at m ρ K (pk 0 c, 0)); iexact Hrec
  iintro HO
  iapply (Rounds.wp_signal 𝒱₀ ER (ringRd m ρ) (c : Thread nD τ) none (dst := (pk 1 c : Thread nD τ)) (κ := K (pk 1 c, 0))
      (d := (1 : Fin 3)) (by rw [duties_bar]; exact Finset.mem_univ _) ((amount_bar m ρ (pk 1 c) 1).trans (by decide)) () (OR c + Bt c 2) rfl)
    $$ [HO HtB1 Hs1]
  · isplitr; · iapply (inv_at m ρ K (pk 1 c, 0)); iexact Hrec
    isplitl [HO]; · iexact HO
    isplitl [HtB1]; · iexact HtB1
    isplitl [Hs1]
    · rw [payload_bar, barPay_peer]
      isplitl [Hs1]; · iexists f0; unfold slotPts; iexact Hs1
      iapply (reached_at m ρ K (c, ri 1)); iexact Hrec
    · iapply (reached_at m ρ K (pk 1 c, 0)); iexact Hrec
  iintro HO
  iapply (Rounds.wp_signal 𝒱₀ ER (ringRd m ρ) (c : Thread nD τ) none (dst := (pk 2 c : Thread nD τ)) (κ := K (pk 2 c, 0))
      (d := (2 : Fin 3)) (by rw [duties_bar]; exact Finset.mem_univ _) ((amount_bar m ρ (pk 2 c) 2).trans (by decide)) () (OR c) rfl)
    $$ [HO HtB2 Hs2]
  · isplitr; · iapply (inv_at m ρ K (pk 2 c, 0)); iexact Hrec
    isplitl [HO]; · iexact HO
    isplitl [HtB2]; · iexact HtB2
    isplitl [Hs2]
    · rw [payload_bar, barPay_peer]
      isplitl [Hs2]; · iexists f0; unfold slotPts; iexact Hs2
      iapply (reached_at m ρ K (c, ri 2)); iexact Hrec
    · iapply (reached_at m ρ K (pk 2 c, 0)); iexact Hrec
  iintro HO
  -- the WAIT for the barrier cell's three units, owing the three receive credits: the peers' slots come with it
  iapply (Rounds.wp_wait_rest_token 𝒱₀ ER (ringRd m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HaB]
  · isplitr; · iapply (inv_at m ρ K (c, 0)); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  rw [rev0, rev1, rev2]
  icases Hp with ⟨⟨⟨%fn0, Hn0⟩, #Hr0⟩, ⟨⟨%fn1, Hn1⟩, #Hr1⟩, ⟨%fn2, Hn2⟩, #Hr2⟩
  -- the staging buffer of x in three shares, one per copy
  ihave Hxs := (pointsTo_share (PosShare.mem_left_op_right fullShare)).1 $$ Hx
  icases Hxs with ⟨Hx0, Hxr⟩
  ihave Hxs := (pointsTo_share (PosShare.mem_left_op_right fullShare.right)).1 $$ Hxr
  icases Hxs with ⟨Hx1, Hx2⟩
  unfold OR
  -- the copy at offset 1: into slot 2 of `pk 0 c`
  iapply (wp_send_ring0 m ρ K c _ (dev4_eq c) fn2 (Rt c 2 + Rt c 1) _) $$ [Hx0 Hn2 HO HtS0 HtR0]
  · isplitr; · iapply (inv_at m ρ K (c, 1)); iexact Hrec
    isplitr; · iapply (inv_at m ρ K (pk 0 c, 6)); iexact Hrec
    isplitl [Hx0]; · rw [xPts_eq]; iexact Hx0
    isplitl [Hn2]; · iexact Hn2
    isplitl [HO]; · iexact HO
    isplitl [HtS0]; · iexact HtS0
    isplitr; · iapply (reached_at m ρ K (c, 1)); iexact Hrec
    isplitl [HtR0]; · iexact HtR0
    iexact Hr2
  iintro ⟨HcS0, HO⟩
  -- the copy at offset 2: into slot 1 of `pk 1 c`
  iapply (wp_send_ring1 m ρ K c _ (dev5_eq c) fn1 (Rt c 2) _) $$ [Hx1 Hn1 HO HtS1 HtR1]
  · isplitr; · iapply (inv_at m ρ K (c, 2)); iexact Hrec
    isplitr; · iapply (inv_at m ρ K (pk 1 c, 5)); iexact Hrec
    isplitl [Hx1]; · rw [xPts_eq]; iexact Hx1
    isplitl [Hn1]; · iexact Hn1
    isplitl [HO]; · iexact HO
    isplitl [HtS1]; · iexact HtS1
    isplitr; · iapply (reached_at m ρ K (c, 2)); iexact Hrec
    isplitl [HtR1]; · iexact HtR1
    iexact Hr1
  iintro ⟨HcS1, HO⟩
  -- the copy at offset 3: into slot 0 of `pk 2 c`
  iapply (wp_send_ring2 m ρ K c _ (dev6_eq c) fn0 0 _) $$ [Hx2 Hn0 HO HtS2 HtR2]
  · isplitr; · iapply (inv_at m ρ K (c, 3)); iexact Hrec
    isplitr; · iapply (inv_at m ρ K (pk 2 c, 4)); iexact Hrec
    isplitl [Hx2]; · rw [xPts_eq]; iexact Hx2
    isplitl [Hn0]; · iexact Hn0
    isplitl [HO]; · rw [zero_add]; iexact HO
    isplitl [HtS2]; · iexact HtS2
    isplitr; · iapply (reached_at m ρ K (c, 3)); iexact Hrec
    isplitl [HtR2]; · iexact HtR2
    iexact Hr0
  iintro ⟨HcS2, HO⟩
  -- the wait on send cell 0: its share of the staging buffer of x back
  iapply (Rounds.wp_wait_rest_token 𝒱₀ ER (ringRd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iapply (inv_at m ρ K (c, 1)); iexact Hrec
    isplitl [HcS0]; · iexact HcS0
    isplitl [HO]; · iexact HO
    isplitr; · rw [MayWait_zero]; iempintro
    iexact HaS0
  iintro ⟨HO, HaS0, -, Hpay⟩
  ihave Hx0 := (Entails.of_eq ((rest_send m ρ c 0).trans (by unfold sendPay; exact xPts_eq m ρ c fullShare.left))) $$ Hpay
  -- the wait on receive cell 2: slot 2 holding `pk 2 c`'s block
  iapply (Rounds.wp_wait_rest_token 𝒱₀ ER (ringRd m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ c 2).symm)) $$ [HcR2 HO HaR2]
  · isplitr; · iapply (inv_at m ρ K (c, 6)); iexact Hrec
    isplitl [HcR2]; · iexact HcR2
    isplitl [HO]; · iexact HO
    isplitr; · rw [MayWait_zero]; iempintro
    iexact HaR2
  iintro ⟨HO, HaR2, -, Hpay⟩
  ihave Hl2 := (Entails.of_eq (rest_recv m ρ c 2)) $$ Hpay
  unfold recvPay
  icases Hl2 with ⟨%fd2, Hl2⟩
  -- the wait on send cell 1: its share of the staging buffer of x back
  iapply (Rounds.wp_wait_rest_token 𝒱₀ ER (ringRd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iapply (inv_at m ρ K (c, 2)); iexact Hrec
    isplitl [HcS1]; · iexact HcS1
    isplitl [HO]; · iexact HO
    isplitr; · rw [MayWait_zero]; iempintro
    iexact HaS1
  iintro ⟨HO, HaS1, -, Hpay⟩
  ihave Hx1 := (Entails.of_eq ((rest_send m ρ c 1).trans (by unfold sendPay; exact xPts_eq m ρ c fullShare.right.left))) $$ Hpay
  -- the wait on receive cell 1: slot 1 holding `pk 1 c`'s block
  iapply (Rounds.wp_wait_rest_token 𝒱₀ ER (ringRd m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m ρ c 1).symm)) $$ [HcR1 HO HaR1]
  · isplitr; · iapply (inv_at m ρ K (c, 5)); iexact Hrec
    isplitl [HcR1]; · iexact HcR1
    isplitl [HO]; · iexact HO
    isplitr; · rw [MayWait_zero]; iempintro
    iexact HaR1
  iintro ⟨HO, HaR1, -, Hpay⟩
  ihave Hl1 := (Entails.of_eq (rest_recv m ρ c 1)) $$ Hpay
  unfold recvPay
  icases Hl1 with ⟨%fd1, Hl1⟩
  -- the wait on send cell 2: its share of the staging buffer of x back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iapply (inv_at m ρ K (c, 3)); iexact Hrec
    isplitl [HcS2]; · iexact HcS2
    isplitl [HO]; · iexact HO
    isplitr; · rw [MayWait_zero]; iempintro
    iexact HaS2
  iintro ⟨HO, HaS2, -, Hpay⟩
  ihave Hx2 := (Entails.of_eq ((rest_send m ρ c 2).trans (by unfold sendPay; exact xPts_eq m ρ c fullShare.right.right))) $$ Hpay
  -- the wait on receive cell 0: slot 0 holding `pk 0 c`'s block
  iapply (Rounds.wp_wait_rest_token 𝒱₀ ER (ringRd m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m ρ c 0).symm)) $$ [HcR0 HO HaR0]
  · isplitr; · iapply (inv_at m ρ K (c, 4)); iexact Hrec
    isplitl [HcR0]; · iexact HcR0
    isplitl [HO]; · iexact HO
    isplitr; · rw [MayWait_zero]; iempintro
    iexact HaR0
  iintro ⟨HO, HaR0, -, Hpay⟩
  ihave Hl0 := (Entails.of_eq (rest_recv m ρ c 0)) $$ Hpay
  unfold recvPay
  icases Hl0 with ⟨%fd0, Hl0⟩
  -- the six own cells close: their counters at zero are the core's again
  imod (Rounds.cell_close ER (ringRd m ρ) (Set.mem_univ (K (c, 1))) (fun h => h) (R := 0 + 1) (duties_later m ρ (kcell (c, 1)))) $$ [HaS0] with Hz1
  · isplitr; · iapply (inv_at m ρ K (c, 1)); iexact Hrec
    iexact HaS0
  imod (Rounds.cell_close ER (ringRd m ρ) (Set.mem_univ (K (c, 2))) (fun h => h) (R := 0 + 1) (duties_later m ρ (kcell (c, 2)))) $$ [HaS1] with Hz2
  · isplitr; · iapply (inv_at m ρ K (c, 2)); iexact Hrec
    iexact HaS1
  imod (Rounds.cell_close ER (ringRd m ρ) (Set.mem_univ (K (c, 3))) (fun h => h) (R := 0 + 1) (duties_later m ρ (kcell (c, 3)))) $$ [HaS2] with Hz3
  · isplitr; · iapply (inv_at m ρ K (c, 3)); iexact Hrec
    iexact HaS2
  imod (Rounds.cell_close ER (ringRd m ρ) (Set.mem_univ (K (c, 4))) (fun h => h) (R := 0 + 1) (duties_later m ρ (kcell (c, 4)))) $$ [HaR0] with Hz4
  · isplitr; · iapply (inv_at m ρ K (c, 4)); iexact Hrec
    iexact HaR0
  imod (Rounds.cell_close ER (ringRd m ρ) (Set.mem_univ (K (c, 5))) (fun h => h) (R := 0 + 1) (duties_later m ρ (kcell (c, 5)))) $$ [HaR1] with Hz5
  · isplitr; · iapply (inv_at m ρ K (c, 5)); iexact Hrec
    iexact HaR1
  imod (Rounds.cell_close ER (ringRd m ρ) (Set.mem_univ (K (c, 6))) (fun h => h) (R := 0 + 1) (duties_later m ρ (kcell (c, 6)))) $$ [HaR2] with Hz6
  · isplitr; · iapply (inv_at m ρ K (c, 6)); iexact Hrec
    iexact HaR2
  -- the staging buffer of x whole again
  ihave Hxr := (pointsTo_share (PosShare.mem_left_op_right fullShare.right)).2 $$ [Hx1 Hx2]
  · isplitl [Hx1]; · iexact Hx1
    iexact Hx2
  ihave Hx := (pointsTo_share (PosShare.mem_left_op_right fullShare)).2 $$ [Hx0 Hxr]
  · isplitl [Hx0]; · iexact Hx0
    iexact Hxr
  -- the loads and the store
  unfold slotPts
  iapply (wp_load 𝒱₀ (c : Thread nD τ) none Set.univ (m := xM) (Finset.subset_univ _)) $$ Hx; iintro Hx
  rw [read_x]
  iapply (wp_load 𝒱₀ (c : Thread nD τ) none Set.univ (m := rM) load_sub0) $$ Hl0; iintro Hl0
  iapply (wp_load 𝒱₀ (c : Thread nD τ) none Set.univ (m := rM) load_sub1) $$ Hl1; iintro Hl1
  iapply (wp_load 𝒱₀ (c : Thread nD τ) none Set.univ (m := rM) load_sub2) $$ Hl2; iintro Hl2
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  -- the scratch buffer put back together
  ihave Hscr := (scratch_join (Ix := Unit) (Val := Elt F) (Name := ℕ) (U := UU) (Lvl := ℕ) c _ _ _ f0) $$ [Hl0 Hl1 Hl2 Hrest]
  · isplitl [Hl0]; · iexact Hl0
    isplitl [Hl1]; · iexact Hl1
    isplitl [Hl2]; · iexact Hl2
    iexact Hrest
  iapply Hk
  unfold bodyPost Φ₁ Dat.owesAt Pipeline.owesWithin
  rw [show (dats m ρ 0 c).owed t₀.succ = 0 from rfl, bigSep_fin6]
  isplitl [Hscr Hz1 Hz2 Hz3 Hz4 Hz5 Hz6]
  · isplitl [Hscr]; · iexact Hscr
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists (insert (SemLoc.dma rcv0.sem, ()) (insert (SemLoc.dma snd2.sem, ()) (insert (SemLoc.dma rcv1.sem, ()) (insert (SemLoc.dma snd1.sem, ())
      (insert (SemLoc.dma rcv2.sem, ()) (insert (SemLoc.dma snd0.sem, ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; exact pay_eq m ρ c fd0 fd1 fd2)
  iexact Hout

end Body

omit [FloatOps F] in
theorem bigSep_W (Φ : Fin cfg0.W → sProp 𝕄) : bigSep Finset.univ Φ = iprop(Φ (0 : Fin 2) ∗ Φ (1 : Fin 2)) := Gen.bigSep_W0 Φ

set_option maxRecDepth 4000 in
/-- The library's body obligation on core `c`: the pipeline's statement of the one grid point, handed to `sound_body`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.Hand.body_obligation' depends on axioms: [propext, Classical.choice, Quot.sound] -/
#guard_msgs in #print axioms body_obligation

end Cert.Kernel.Hand

end
-- ==== Proof.WRingGhost.lean ====
/-
  The ghost-state side of the launch of the all-reduce on the ring of four.

  The launch element of the ring's copy of the rounds algebra is spent on every device's seven cells — barrier,
  three send, three receive — at round 0, and on the nine duty tokens of a device's OWN cells: its barrier's three
  duties, and the one duty of each send and each receive cell.  The global step then allocates every cell's
  invariant under one update (a barrier cell's invariant is shared by the four devices of its ring) and deals
  the tokens round the ring to the devices that PAY the duties: duty `j` of a barrier cell goes to the device
  `j + 1` places behind its owner, the duty of receive cell `2 - j` likewise, and a send cell's duty stays.
  The invariants and the reached-marks are persistent, so every device keeps a copy of all of them.
-/
import proofs.«900736_g7700000000000737_dist_ar_v7x_xyz2x4x4_z_m256_n256_f32_1_alg».proof.Proof.WProto

noncomputable section

namespace Cert.Kernel.Hand

open Cert.Kernel Cert.Kernel.Facts₀ Cert.Kernel.Facts Cert.Kernel.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens -/

theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's seven cells. -/
def ringCells : Finset (GSem nD τ sig) := Finset.univ.map ⟨kcell, kcell_injective⟩

/-- Which cell and which duty a minted token is of, by offset `j` and kind: the barrier's duty `j`, the one duty of
    send cell `j`, the one duty of receive cell `j`. -/
abbrev tokIx (jt : Fin 3 × Fin 3) : Fin 7 × Fin 3 := match jt.2 with
  | 0 => (0, jt.1) | 1 => (si jt.1, 0) | 2 => (ri jt.1, 0)
theorem tokIx_injective : Function.Injective tokIx := by decide

/-- A device's own cells' duty tokens as minted: (device, offset, kind). -/
abbrev tokOf (cj : Dev nD × Fin 3 × Fin 3) : GSem nD τ sig × ℕ × Fin 3 :=
  (kcell (cj.1, (tokIx cj.2).1), 0, (tokIx cj.2).2)
theorem tokOf_injective : Function.Injective (tokOf : Dev nD × Fin 3 × Fin 3 → GSem nD τ sig × ℕ × Fin 3) := by
  rintro ⟨c, jt⟩ ⟨c', jt'⟩ h
  have h1 : (c, (tokIx jt).1) = (c', (tokIx jt').1) :=
    kcell_injective (congrArg (fun x : GSem nD τ sig × ℕ × Fin 3 => x.1) h)
  have h2 : (tokIx jt).2 = (tokIx jt').2 := congrArg (fun x : GSem nD τ sig × ℕ × Fin 3 => x.2.2) h
  have hc : c = c' := congrArg Prod.fst h1
  have hj : jt = jt' := tokIx_injective (Prod.ext (congrArg Prod.snd h1) h2)
  subst hc; subst hj; rfl
def ringToks : Finset (GSem nD τ sig × ℕ × Fin 3) := Finset.univ.map ⟨tokOf, tokOf_injective⟩

/-- The launch element: the pipeline's copy, and the ring's cells and tokens. -/
def u₀ : UU :=
  (initOf (Pipeline.cells cfgs Gen.cellOf_inj) (Pipeline.launchToks cfgs Gen.cellOf_inj), initOf ringCells ringToks)

omit [FloatOps F] in
/-- The ring's launch element funds, per device, its seven cells at round 0 and the tokens of its own cells' duties. -/
theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    exact bigSep_congr fun j _ => by rw [bigSep_fin3]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch element splits into the pipeline's half and the ring's, and the ring's is funded. -/
theorem hu₀ : (ownU u₀ : sProp 𝕄)
    ⊢ |={Set.univ}=> iprop(BI.own (EP (initOf (Pipeline.cells cfgs Gen.cellOf_inj) (Pipeline.launchToks cfgs Gen.cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The semaphores the global step is handed -/

omit [FloatOps F] in
/-- The kernel's own semaphores are the three send and the three receive semaphores; -/
theorem ownSems0_eq (c : Dev nD) : (Pipeline.ownSems0 (Ix := Unit) (Name := ℕ) (U := UU) (Lvl := ℕ) (Val := Elt F) (τ := τ) osem c : sProp 𝕄)
    = bigSep Finset.univ fun k : Fin 6 => semVal ((c : Thread nD τ), osem k) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together: each of the device's seven cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin6, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
/-- One device's part of the global step: each of its seven cells, counter at zero and round state at round 0, becomes
    the cell's invariant at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring, and every device's ghost state -/

omit [FloatOps F] in
/-- Under names for all the cells, a device's positions and the tokens it pays with are its ghost state. -/
theorem ghost_intro (K : Dev nD × Fin 7 → ℕ) (c : Dev nD) : iprop(records m ρ K ∗ positions c ∗ payToks c) ⊢ G' m ρ c := by
  unfold G' ghost
  iintro H
  iexists K
  iexact H

omit [FloatOps F] in
/-- The tokens dealt round the ring: a barrier cell's duty-`j` token and the token of receive cell `2 - j` go from their
    owner `pk j c` to the device `c` that pays them; a send cell's token stays with its owner. -/
theorem toks_around : (bigSep Finset.univ fun c : Dev nD => (toks c : sProp 𝕄)) ⊢ bigSep Finset.univ fun c : Dev nD => payToks c := by
  have hB (j : Fin 3) : (bigSep Finset.univ fun c : Dev nD => (dutyTok ER (barCell c) 0 j : sProp 𝕄))
      = bigSep Finset.univ fun c : Dev nD => dutyTok ER (barCell (pk j c)) 0 j :=
    bigSep_univ_equiv (rot j) _
  have hR0 : (bigSep Finset.univ fun c : Dev nD => (dutyTok ER (recvCell c 2) 0 0 : sProp 𝕄))
      = bigSep Finset.univ fun c : Dev nD => dutyTok ER (recvCell (pk 0 c) (Fin.rev 0)) 0 0 :=
    bigSep_univ_equiv (rot 0) (fun c : Dev nD => (dutyTok ER (recvCell c 2) 0 0 : sProp 𝕄))
  have hR1 : (bigSep Finset.univ fun c : Dev nD => (dutyTok ER (recvCell c 1) 0 0 : sProp 𝕄))
      = bigSep Finset.univ fun c : Dev nD => dutyTok ER (recvCell (pk 1 c) (Fin.rev 1)) 0 0 :=
    bigSep_univ_equiv (rot 1) (fun c : Dev nD => (dutyTok ER (recvCell c 1) 0 0 : sProp 𝕄))
  have hR2 : (bigSep Finset.univ fun c : Dev nD => (dutyTok ER (recvCell c 0) 0 0 : sProp 𝕄))
      = bigSep Finset.univ fun c : Dev nD => dutyTok ER (recvCell (pk 2 c) (Fin.rev 2)) 0 0 :=
    bigSep_univ_equiv (rot 2) (fun c : Dev nD => (dutyTok ER (recvCell c 0) 0 0 : sProp 𝕄))
  unfold toks payToks
  simp only [bigSep_fin3, bigSep_sep']
  iintro ⟨⟨B0, B1, B2⟩, ⟨S0, S1, S2⟩, R0, R1, R2⟩
  ihave B0' := (Entails.of_eq (hB 0)) $$ B0
  ihave B1' := (Entails.of_eq (hB 1)) $$ B1
  ihave B2' := (Entails.of_eq (hB 2)) $$ B2
  ihave R0' := (Entails.of_eq hR2) $$ R0
  ihave R1' := (Entails.of_eq hR1) $$ R1
  ihave R2' := (Entails.of_eq hR0) $$ R2
  isplitl [B0' B1' B2']
  · isplitl [B0']; · iexact B0'
    isplitl [B1']; · iexact B1'
    iexact B2'
  isplitl [R0' R1' R2']
  · isplitl [R2']; · iexact R2'
    isplitl [R1']; · iexact R1'
    iexact R0'
  isplitl [S0]; · iexact S0
  isplitl [S1]; · iexact S1
  iexact S2

omit [FloatOps F] in
/-- A persistent assertion beside a `bigSep` can be used at every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' allocated cells, positions, reached-marks and minted tokens, regrouped: the invariants' names gathered
    into one function, the invariants and the reached-marks copied to every device, the tokens dealt to their payers. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

omit [FloatOps F] in
/-- The global step: own and unscoped semaphores of every device at once, every cell's invariant allocated, the tokens
    dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.Kernel.Hand.hu₀' depends on axioms: [propext, Classical.choice, Quot.sound] -/
#guard_msgs in #print axioms hu₀
/-- info: 'Cert.Kernel.Hand.glob' depends on axioms: [propext, Classical.choice, Quot.sound] -/
#guard_msgs in #print axioms glob

end Cert.Kernel.Hand

end
-- ==== Proof.WRingRun.lean ====
/-
  The all-reduce's run on the mesh: the credit each device is dealt at launch for the units its peers owe its
  cells, the hand-overs between the launch and the proof data at the one grid point, and the run of @main from
  every device's body: each device's result array ends holding its block plus its three peers', the argument
  arrays unchanged.
-/
import proofs.«900736_g7700000000000737_dist_ar_v7x_xyz2x4x4_z_m256_n256_f32_1_alg».proof.Proof.WProto
import proofs.«900736_g7700000000000737_dist_ar_v7x_xyz2x4x4_z_m256_n256_f32_1_alg».proof.Proof.Gen.Kernel.Points
import Idealize.ShloMosaic.Lib.Pipeline.Cells

noncomputable section

namespace Cert.Kernel.Hand

open Cert.Kernel Cert.Kernel.Facts₀ Cert.Kernel.Facts Cert.Kernel.Slots Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's layout facts -/

theorem ownSemFacts : Pipeline.OwnSemFacts cfg0.spec osem := by decide

theorem share_eq (c : Dev nD) (w : Fin cfg0.W) : (dats m ρ 0 c).share w = fullShare := by unfold Dat.share; split <;> rfl

omit [FloatOps F] in
/-- The kernel's own semaphores at zero, one by one. -/
theorem ownSems0_eq' (c : Dev nD) :
    (Pipeline.ownSems0 (Ix := Unit) (Name := ℕ) (U := UU) (Lvl := ℕ) (Val := Elt F) (τ := τ) osem c : sProp 𝕄)
      = bigSep Finset.univ fun k : Fin 6 => semVal ((c : Thread nD τ), osem k) 0 := rfl

/-! ## The launch credit

Each of the six summands of what a device owes at launch is one tally on a cell of its peer at a fixed offset; the
peer map at an offset is a permutation of the devices, so summed over the devices each cell is owed exactly once
per summand: a device's barrier cell one unit from each of its three peers, its receive cell `s` the block's credit
from the one peer that copies into slot `s`. -/

omit [FloatOps F] in
theorem cred_bar1 (j : Fin 3) (c : Dev nD) :
    (Pipeline.launchCred (fun d => Bt d j) c : sProp 𝕄) ⊢ cred (tallyAt (barCell c) () 1) :=
  Pipeline.launchCred_tallyAt (csem 0) (pk j) (pk j.rev) (pk_pk_rev j) (pk_rev_pk j) () 1 c

omit [FloatOps F] in
theorem cred_recv1 (j : Fin 3) (c : Dev nD) :
    (Pipeline.launchCred (fun d => Rt d j) c : sProp 𝕄) ⊢ cred (tallyAt (recvCell c j.rev) () N) :=
  Pipeline.launchCred_tallyAt (csem (ri j.rev)) (pk j) (pk j.rev) (pk_pk_rev j) (pk_rev_pk j) () N c

omit [FloatOps F] in
theorem launchCred_O₀ (c : Dev nD) :
    (Pipeline.launchCred O₀ c : sProp 𝕄)
      = iprop((((((Pipeline.launchCred (fun d => Rt d 2) c ∗ Pipeline.launchCred (fun d => Rt d 1) c) ∗ Pipeline.launchCred (fun d => Rt d 0) c)
          ∗ Pipeline.launchCred (fun d => Bt d 2) c) ∗ Pipeline.launchCred (fun d => Bt d 1) c) ∗ Pipeline.launchCred (fun d => Bt d 0) c)) := by
  show (Pipeline.launchCred (fun d => ((((Rt d 2 + Rt d 1) + Rt d 0) + Bt d 2) + Bt d 1) + Bt d 0) c : sProp 𝕄) = _
  rw [Pipeline.launchCred_add, Pipeline.launchCred_add, Pipeline.launchCred_add, Pipeline.launchCred_add, Pipeline.launchCred_add]

omit [FloatOps F] in
/-- Three units on one cell are one credit of three. -/
theorem cred_three (g : GSem nD τ sig) :
    (iprop(cred (tallyAt g () 1) ∗ cred (tallyAt g () 1) ∗ cred (tallyAt g () 1)) : sProp 𝕄) ⊢ cred (tallyAt g () 3) :=
  (sep_mono_right (cred_add _ _).2).trans ((cred_add _ _).2.trans (Entails.of_eq (by rw [tallyAt_add, tallyAt_add])))

omit [FloatOps F] in
theorem creds (c : Dev nD) :
    (Pipeline.launchCred O₀ c : sProp 𝕄)
      ⊢ iprop(cred (tallyAt (barCell c) () 3) ∗ bigSep Finset.univ fun s : Fin 3 => cred (tallyAt (recvCell c s) () N)) := by
  rw [launchCred_O₀, bigSep_fin3]
  iintro ⟨⟨⟨⟨⟨HR2, HR1⟩, HR0⟩, HB2⟩, HB1⟩, HB0⟩
  isplitl [HB0 HB1 HB2]
  · iapply (cred_three (F := F) (barCell c))
    isplitl [HB0]; · iapply (cred_bar1 (F := F) 0 c); iexact HB0
    isplitl [HB1]; · iapply (cred_bar1 (F := F) 1 c); iexact HB1
    iapply (cred_bar1 (F := F) 2 c); iexact HB2
  · isplitl [HR2]; · iapply (cred_recv1 (F := F) 2 c); iexact HR2
    isplitl [HR1]; · iapply (cred_recv1 (F := F) 1 c); iexact HR1
    iapply (cred_recv1 (F := F) 0 c); iexact HR0

/-! ## Between the launch and the proof data -/

omit [FloatOps F] in
/-- What the launch hands device `c` is what its body starts from: the ring's ghost state, the launch credit read
    cell by cell, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN⟩
  imodintro
  unfold start G'
  isplitl
  · isplitl [HG]; · iexact HG
    isplitl [H3]; · iexact H3
    isplitl [HN]; · iexact HN
    iexact Hlev
  · iempintro

/-- At the region's entry the scratch buffer arrives whole, at some contents. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, Gen.scopedRest0_eq]
  unfold Φ₀
  iintro ⟨Hs, -, Hr⟩
  isplitl [Hs]; · iexact Hs
  iexact Hr

/-- At its exit the scratch buffer goes back whole and the six own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, Gen.scopedRest0_eq, ownSems0_eq']
  unfold Φ₁
  iintro ⟨Hr, Hz⟩
  isplitr; · iempintro
  isplitl [Hz]; · iexact Hz
  iexact Hr

/-- The two staging semaphores are none of the protocol's seven: they sit at level 0, below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (lv_other c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh, for any float values, from any memory with zero counters: given the ring's ghost state at
    launch and every device's body, every weakly fair execution of @main terminates, and every final state has each
    device's two windowed arrays at the proof data's final contents. -/
theorem run_main (u₀ : UU)
    (hu₀ : (ownU u₀ : sProp 𝕄) ⊢ |={Set.univ}=> iprop(BI.own (EP (initOf (Pipeline.cells cfgs Gen.cellOf_inj) (Pipeline.launchToks cfgs Gen.cellOf_inj))) ∗ bigSep Finset.univ (G m ρ)))
    (hglob : (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ))
    (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := hbody) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the kernel's result: its one write-back writes the whole array with what the
    body left in the staging buffer. -/
theorem finalA_out (c : Dev nD) : finalA m ρ c (1 : Fin 2) = outAt m ρ c := by
  have h := (dats (F := F) m ρ 0 c).arrAt_succ (1 : Fin 2) t₀
  rw [Gen.flush0_1 t₀, if_pos rfl] at h
  exact h.trans (Memref.write_access_unit_zero_univ (Elt F) main_v1 (funext fun a => Nat.zero_mul _) _ _ _)

/-- The run with its values named: from any memory with zero counters, every weakly fair execution of @main terminates,
    and in every final state each device's result array holds its block plus its three peers' and its argument array
    what it held. -/
theorem run_strong (u₀ : UU)
    (hu₀ : (ownU u₀ : sProp 𝕄) ⊢ |={Set.univ}=> iprop(BI.own (EP (initOf (Pipeline.cells cfgs Gen.cellOf_inj) (Pipeline.launchToks cfgs Gen.cellOf_inj))) ∗ bigSep Finset.univ (G m ρ)))
    (hglob : (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ))
    (hbody : ∀ c : Dev nD, BodyObligation (dats (F := F) m ρ 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outAt m ρ c
        ∧ r.2.mem ((c.tc : Thread nD τ).loc main_arg0) = m ((c.tc : Thread nD τ).loc main_arg0)) :=
  (θ_run defs (onTc (τ := τ) (main (F := F))) (s₀ m ρ)).mono
    (fun r hr c => ⟨(hr c (1 : Fin 2)).trans (finalA_out m ρ c), (hr c (0 : Fin 2)).trans (finalA_x m ρ c)⟩)
    (run_main m ρ u₀ hu₀ hglob hbody)

/-- info: 'Cert.Kernel.Hand.run_strong' depends on axioms: [propext, Classical.choice, Quot.sound] -/
#guard_msgs in #print axioms Cert.Kernel.Hand.run_strong

end Cert.Kernel.Hand

end
-- ==== Proof.lean ====
/-
  The claim, assembled.

  Thirty-two devices in a 2 × 4 × 4 mesh; the whole input f32[1024, 256] is cut along its rows into four blocks by
  the last mesh coordinate.  Each device sends its block to the three devices that share its first two coordinates
  and adds the three blocks it receives to its own, so every device ends with the sum of the four row-blocks; the
  one-device reference reshapes the input to [4, 256, 256] and sums over the first axis.  Over the extended reals
  addition is commutative and associative, so the two agree index by index whatever order a device adds in.

  The run of the kernel (both the word-level program and its idealization, one proof generic in the float
  instance) ends with each device's result at that sum of blocks and its argument unchanged: the frames are this
  run with the value dropped, the equivalence is its instance over the extended reals joined to the reference's run.
  The idealization rewrote nothing, so there is nothing to preserve.
-/
import proofs.«900736_g7700000000000737_dist_ar_v7x_xyz2x4x4_z_m256_n256_f32_1_alg».proof.Defs
import proofs.«900736_g7700000000000737_dist_ar_v7x_xyz2x4x4_z_m256_n256_f32_1_alg».proof.Proof.Gen.Kernel
import proofs.«900736_g7700000000000737_dist_ar_v7x_xyz2x4x4_z_m256_n256_f32_1_alg».proof.Proof.Gen.Kernel.Skeleton
import proofs.«900736_g7700000000000737_dist_ar_v7x_xyz2x4x4_z_m256_n256_f32_1_alg».proof.Proof.Gen.Kernel.Launch
import proofs.«900736_g7700000000000737_dist_ar_v7x_xyz2x4x4_z_m256_n256_f32_1_alg».proof.Proof.Gen.Kernel.Points
import proofs.«900736_g7700000000000737_dist_ar_v7x_xyz2x4x4_z_m256_n256_f32_1_alg».proof.Proof.Gen.Kernel.Frame
import proofs.«900736_g7700000000000737_dist_ar_v7x_xyz2x4x4_z_m256_n256_f32_1_alg».proof.Proof.Gen.KernelIdeal
import proofs.«900736_g7700000000000737_dist_ar_v7x_xyz2x4x4_z_m256_n256_f32_1_alg».proof.Proof.Gen.KernelIdeal.Skeleton
import proofs.«900736_g7700000000000737_dist_ar_v7x_xyz2x4x4_z_m256_n256_f32_1_alg».proof.Proof.Gen.KernelIdeal.Launch
import proofs.«900736_g7700000000000737_dist_ar_v7x_xyz2x4x4_z_m256_n256_f32_1_alg».proof.Proof.Gen.KernelIdeal.Points
import proofs.«900736_g7700000000000737_dist_ar_v7x_xyz2x4x4_z_m256_n256_f32_1_alg».proof.Proof.Gen.KernelIdeal.Frame
import proofs.«900736_g7700000000000737_dist_ar_v7x_xyz2x4x4_z_m256_n256_f32_1_alg».proof.Proof.Gen.ReferenceIdeal
import proofs.«900736_g7700000000000737_dist_ar_v7x_xyz2x4x4_z_m256_n256_f32_1_alg».proof.Proof.Gen.ReferenceIdeal.Run
import proofs.«900736_g7700000000000737_dist_ar_v7x_xyz2x4x4_z_m256_n256_f32_1_alg».proof.Proof.Gen.Pre_finite_inputs_Kernel
import proofs.«900736_g7700000000000737_dist_ar_v7x_xyz2x4x4_z_m256_n256_f32_1_alg».proof.Proof.Gen.Pre_finite_inputs_ReferenceIdeal
import proofs.«900736_g7700000000000737_dist_ar_v7x_xyz2x4x4_z_m256_n256_f32_1_alg».proof.Proof.RefValue
import proofs.«900736_g7700000000000737_dist_ar_v7x_xyz2x4x4_z_m256_n256_f32_1_alg».proof.Proof.Body
import proofs.«900736_g7700000000000737_dist_ar_v7x_xyz2x4x4_z_m256_n256_f32_1_alg».proof.Proof.RingGhost
import proofs.«900736_g7700000000000737_dist_ar_v7x_xyz2x4x4_z_m256_n256_f32_1_alg».proof.Proof.RingRun
import proofs.«900736_g7700000000000737_dist_ar_v7x_xyz2x4x4_z_m256_n256_f32_1_alg».proof.Proof.WBody
import proofs.«900736_g7700000000000737_dist_ar_v7x_xyz2x4x4_z_m256_n256_f32_1_alg».proof.Proof.WRingGhost
import proofs.«900736_g7700000000000737_dist_ar_v7x_xyz2x4x4_z_m256_n256_f32_1_alg».proof.Proof.WRingRun
import Idealize.ShloMosaic.Adequacy
import Idealize.ShloMosaic.Init

noncomputable section

namespace Cert.Proof

open Idealize.ShloMosaic Idealize.ShloMosaic.TcCoe Idealize.SL.Sem

/-- The word-level program's run: every device ends with its result at the sum of the four blocks and its argument
    unchanged. -/
theorem run_k (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_v1) = Cert.Kernel.Hand.outAt m ρ c
      ∧ r.2.mem ((c.tc : Thread Cert.Kernel.nD Cert.Kernel.τ).loc Cert.Kernel.main_arg0) = m ((c.tc : Thread Cert.Kernel.nD Cert.Kernel.τ).loc Cert.Kernel.main_arg0)) :=
  Cert.Kernel.Hand.run_strong m ρ Cert.Kernel.Hand.u₀ (Cert.Kernel.Hand.hu₀ m ρ) (Cert.Kernel.Hand.glob m ρ) (Cert.Kernel.Hand.body_obligation m ρ)

/-- The idealized program's run, the same statement over the extended reals. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Cert.KernelIdeal.Hand.outAt m ρ c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdeal.Hand.run_strong m ρ Cert.KernelIdeal.Hand.u₀ (Cert.KernelIdeal.Hand.hu₀ m ρ) (Cert.KernelIdeal.Hand.glob m ρ) (Cert.KernelIdeal.Hand.body_obligation m ρ)

theorem frame_k : Cert.frame_Kernel := fun m ρ _ =>
  (θ_run (Cert.Kernel.defs (F := Bits)) _ _).mono (fun _ h c => (h c).2) (run_k m ρ)
theorem frame_ki : Cert.frame_KernelIdeal := fun m ρ _ =>
  (θ_run (Cert.KernelIdeal.defs (F := Ideal)) _ _).mono (fun _ h c => (h c).2) (run_ki m ρ)

/-- A device's staging buffer of `x` holds its argument array: the window is the whole array at block index 0. -/
theorem xstg_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Hand.xstg m ρ c = m ((c.tc : Thread Cert.KernelIdeal.nD Cert.KernelIdeal.τ).loc Cert.KernelIdeal.main_arg0) := by
  unfold Cert.KernelIdeal.Hand.xstg Cert.KernelIdeal.Hand.s₀
  exact Memref.read_access_unit_zero (Elt Ideal) Cert.KernelIdeal.main_arg0 (funext fun a => Nat.zero_mul _) _ _

/-- Each device's argument is its row-block of the reference's whole array, so its result — the sum of its block and its
    three peers' — is the reference's sum over the four row-blocks. -/
theorem algebraic : Cert.algebraic_KernelIdeal_ReferenceIdeal := by
  intro m ρ m' ρ' _ hagree
  refine ⟨Cert.RefSide.refVal (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨(h c).1.trans ?_, (h c).2⟩) (run_ki m ρ)
    unfold Cert.KernelIdeal.Hand.outAt
    rw [xstg_eq, xstg_eq, xstg_eq, xstg_eq, hagree c, hagree (Cert.Ring.pk 0 c), hagree (Cert.Ring.pk 1 c), hagree (Cert.Ring.pk 2 c)]
    exact Cert.RefSide.sum4_blocks_eq_ref _ c
  · exact (θ_run (Cert.ReferenceIdeal.defs (F := Ideal)) _ _).mono (fun r h => ⟨(h 0).1, (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.RefSide.frame_ri, trivial, algebraic⟩

end Cert.Proof

end
